-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Pre_finite_inputs_ReferenceIdeal.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S4096x2048 : Shape := ⟨2, ![4096, 2048]⟩
abbrev S8192x1024 : Shape := ⟨2, ![8192, 1024]⟩
abbrev S4096x1024 : Shape := ⟨2, ![4096, 1024]⟩
abbrev S_ : Shape := ⟨0, ![]⟩

abbrev nBuf : Space → Nat
  | .hbm => 2
  | .vmem => 1
  | .smem => 0
  | _ => 0

abbrev bufTy : (tb : Table) → Fin (tcTables nBuf tb) → BufTy
  | .hbm, ⟨0, _⟩ => ⟨S4096x2048, .f32⟩
  | .hbm, ⟨1, _⟩ => ⟨S8192x1024, .f32⟩
  | .local _ .vmem, ⟨0, _⟩ => ⟨S4096x1024, .f32⟩
  | _, _ => ⟨S4096x2048, .f32⟩

abbrev bufScoped : (cs : CoreSpace) → Fin (nBuf (.core cs)) → Bool
  | .vmem, ⟨0, _⟩ => true
  | _, _ => false

abbrev semScoped : Fin 2 → Bool
  | ⟨0, _⟩ => false
  | ⟨1, _⟩ => true
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 2 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v18 : BitVec 32 := Scalar.muli v2 c4096_i32
  let c0_i32_12 : BitVec 32 := 0#32
  ![v18.toNat, 0]
def k0_off2 (d0 : Dev nD) : Fin 2 → Nat :=
  let c0_i32_13 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c1024_i32 : BitVec 32 := 1024#32
  let v17 : BitVec 32 := Scalar.muli v9 c1024_i32
  ![0, v17.toNat]
def k0_dev2 (d0 : Dev nD) : Nat :=
  let c0_i32_9 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8 : BitVec 32 := 8#32
  let v19 : BitVec 32 := Scalar.muli v9 c8_i32_8
  let v20 : BitVec 32 := Scalar.addi c0_i32_9 v19
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_10 : BitVec 32 := 4#32
  let v21 : BitVec 32 := Scalar.muli v5 c4_i32_10
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v23 : BitVec 32 := Scalar.muli v8 c1_i32_11
  let v24 : BitVec 32 := Scalar.addi v22 v23
  v24.toNat
def k0_off3 (d0 : Dev nD) : Fin 2 → Nat :=
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_14 : BitVec 32 := 1024#32
  let v27 : BitVec 32 := Scalar.muli v2 c1024_i32_14
  ![0, v27.toNat]
def k0_dev3 (d0 : Dev nD) : Nat :=
  let c0_i32_31_r0 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_30_r0 : BitVec 32 := 8#32
  let v44_r0 : BitVec 32 := Scalar.muli v9 c8_i32_30_r0
  let v45_r0 : BitVec 32 := Scalar.addi c0_i32_31_r0 v44_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32_r0 : BitVec 32 := 4#32
  let v46_r0 : BitVec 32 := Scalar.muli v5 c4_i32_32_r0
  let v47_r0 : BitVec 32 := Scalar.addi v45_r0 v46_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33_r0 : BitVec 32 := 1#32
  let v48_r0 : BitVec 32 := Scalar.muli v8 c1_i32_33_r0
  let v49_r0 : BitVec 32 := Scalar.addi v47_r0 v48_r0
  v49_r0.toNat

class Facts₀ : Prop where
  hamt_1 : (1#32 : BitVec 32).msb = false
  hcc0_scoped0 : 1 + S_.numel ≤ 2
  hcc0_scratch1 : 0 + S_.numel ≤ 4
  hcc0_scratch2 : 1 + S_.numel ≤ 4
  hcc0_scratch3 : 2 + S_.numel ≤ 4
  hcc0_scratch4 : 3 + S_.numel ≤ 4
  k0_dev1_lt : ∀ d0 : Dev nD, (k0_dev1 d0) < nD
  k0_off1_inb : ∀ d0 : Dev nD, ∀ a, (k0_off1 d0) a + S4096x1024.size a ≤ S8192x1024.size a
  k0_off2_inb : ∀ d0 : Dev nD, ∀ a, (k0_off2 d0) a + S4096x1024.size a ≤ S4096x2048.size a
  k0_dev2_lt : ∀ d0 : Dev nD, (k0_dev2 d0) < nD
  k0_off3_inb : ∀ d0 : Dev nD, ∀ a, (k0_off3 d0) a + S4096x1024.size a ≤ S4096x2048.size a
  k0_dev3_lt : ∀ d0 : Dev nD, (k0_dev3 d0) < nD

variable [Facts₀]

abbrev cc0_scoped0 : Sems sig S_ := SemArray.consecutive 1 S_ hcc0_scoped0
abbrev cc0_scratch1 : DmaSems sig S_ := SemArray.consecutive 0 S_ hcc0_scratch1
abbrev cc0_scratch2 : DmaSems sig S_ := SemArray.consecutive 1 S_ hcc0_scratch2
abbrev cc0_scratch3 : DmaSems sig S_ := SemArray.consecutive 2 S_ hcc0_scratch3
abbrev cc0_scratch4 : DmaSems sig S_ := SemArray.consecutive 3 S_ hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x2048 : Shape := ⟨2, ![8192, 2048]⟩

abbrev nBuf : Space → Nat
  | .hbm => 1
  | .vmem => 0
  | .smem => 0
  | _ => 0

abbrev bufTy : (tb : Table) → Fin (tcTables nBuf tb) → BufTy
  | .hbm, ⟨0, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelIdeal.Vals.lean ====
/-
  The vocabulary of the exchange, shared by every module of this proof.

  Sixteen devices on a 2 × 2 × 4 mesh; the kernel pairs each device with the one at the other coordinate of the
  first axis, eight logical ids away: an involution without fixed point. Each device holds 4096 rows of 2048
  columns. It keeps the half of the columns its own first coordinate names and sends the other half to its
  partner; it ends with 8192 rows of 1024 columns, its own 4096 rows holding the half it kept and its partner's
  4096 rows holding the half the partner sent. The contents below are stated as what the copies write, through
  the views the kernel itself slices.
-/
import proofs.«900635_g7700000000000636_dist_a2a_v7x_xyz2x2x4_x_m4096_n1024_f32_1_alg».proof.Proof.Gen.KernelIdeal
import Idealize.ShloMosaic.Lib.Pipeline.Launch
import Idealize.ShloMosaic.Lib.Pipeline.Kit

noncomputable section

namespace Cert.KernelIdeal.A2A

open Cert.KernelIdeal Cert.KernelIdeal.Gen
open Idealize.ShloMosaic
open Idealize.ShloMosaic.TcCoe
open Idealize.SL.Sem

variable {F : FTy → Type} [FloatOps F]

/-! ## The partner -/

/-- The device at the other coordinate of the first mesh axis. -/
def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide

/-- The three device chains of the kernel all name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))
theorem dev3_eq (c : Dev nD) : (⟨k0_dev3 c, k0_dev3_lt c⟩ : Dev nD) = peer c :=
  Fin.ext ((k0_dev3_eq c).trans (by revert c; decide))

def swap : Dev nD ≃ Dev nD := ⟨peer, peer, peer_peer, peer_peer⟩

/-! ## The memrefs -/

abbrev argM : Memref sig .tc .hbm S4096x2048 .f32 := Memref.whole main_arg0
abbrev outM : Memref sig .tc .hbm S8192x1024 .f32 := Memref.whole main_v1
abbrev scrM : Memref sig .tc .vmem S4096x1024 .f32 := Memref.whole cc0_scratch0

/-- The 4096 result rows that belong to device `d`'s first coordinate: `d` fills them on its own result
    array, and on its partner's. -/
abbrev outRows (d : Dev nD) : Memref sig .tc .hbm S4096x1024 .f32 :=
  outM.slice (Rect.unit (s := S8192x1024) (k0_off1 d) S4096x1024.size (k0_off1_inb d)) (fun _ => rfl)
/-- The half of `d`'s columns that goes to its partner. -/
abbrev argFar (d : Dev nD) : Memref sig .tc .hbm S4096x1024 .f32 :=
  argM.slice (Rect.unit (s := S4096x2048) (k0_off2 d) S4096x1024.size (k0_off2_inb d)) (fun _ => rfl)
/-- The half of `d`'s columns that stays. -/
abbrev argNear (d : Dev nD) : Memref sig .tc .hbm S4096x1024 .f32 :=
  argM.slice (Rect.unit (s := S4096x2048) (k0_off3 d) S4096x1024.size (k0_off3_inb d)) (fun _ => rfl)

/-! ## The contents -/

variable (m : (ℓ : Loc nD τ sig) → Buf (Elt F) ℓ)

/-- Device `c`'s argument block, as launched. -/
def xA (c : Dev nD) : Buf (Elt F) ((c : Thread nD τ).loc main_arg0) := m ((c : Thread nD τ).loc main_arg0)
/-- Device `c`'s result array, as launched: arbitrary, and wholly overwritten. -/
def o0 (c : Dev nD) : Buf (Elt F) ((c : Thread nD τ).loc main_v1) := m ((c : Thread nD τ).loc main_v1)

/-- The half device `c` keeps: what the first local copy leaves in the scratch buffer. -/
def kept (c : Dev nD) : S4096x1024.Idx → Elt F .f32 := (argNear c).view.read (Elt F) (xA m c)
/-- The half device `c` sends. -/
def sent (c : Dev nD) : S4096x1024.Idx → Elt F .f32 := (argFar c).view.read (Elt F) (xA m c)

/-- Device `c`'s result array with its partner's rows landed. -/
def landed (c : Dev nD) : Buf (Elt F) ((c : Thread nD τ).loc main_v1) :=
  (outRows (peer c)).view.write (Elt F) (o0 m c) (sent m (peer c)) Finset.univ
/-- Device `c`'s result array at the end: the partner's rows landed, its own rows holding the half it kept. -/
def outVal (c : Dev nD) : Buf (Elt F) ((c : Thread nD τ).loc main_v1) :=
  (outRows c).view.write (Elt F) (landed m c) (kept m c) Finset.univ

end Cert.KernelIdeal.A2A

end
-- ==== Proof.KernelIdeal.Proto.lean ====
/-
  The protocol of the exchange under the rounds discipline.

  Four cells a device. The barrier cell: one unit, paid by the partner's entry signal, handing over the partner's
  result rows that this device will fill, at their launch contents. The send cell: the copy's amount, paid by the device's own transfer once
  its source is read, returning the source columns. The receive cell: the copy's amount, paid by the partner's
  transfer once it has landed, handing over this device's result rows holding what the partner sent. The exit
  cell: one unit, paid by the partner's exit signal, handing over nothing. Each cell has one round of one duty.

  A wait is allowed below everything the waiter still owes: the send cell lowest, then the barrier, the receive
  cell, the exit cell; a device owes its partner's receive cell until its transfer, and its partner's exit cell
  until the end, so every wait is below what is owed at it.
-/
import proofs.«900635_g7700000000000636_dist_a2a_v7x_xyz2x2x4_x_m4096_n1024_f32_1_alg».proof.Proof.KernelIdeal.Vals
import proofs.«900635_g7700000000000636_dist_a2a_v7x_xyz2x2x4_x_m4096_n1024_f32_1_alg».proof.Proof.Gen.KernelIdeal.Launch
import Idealize.ShloMosaic.Lib.Tactic
import Idealize.ShloMosaic.Lib.Transfers

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's own, and the local copies' counters -/

/-- The exchange's component: its own copy of the rounds algebra beside the counters the two local copies draw on. -/
abbrev UX : Type := UR sig nD τ × Counters
abbrev UU : Type := UR sig nD τ × UX

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := (Emb.inl : Emb (UR sig nD τ) UX).trans embR

omit [FloatOps F] in
instance ER_landsIn : (ER (F := F)).LandsIn (upEmb : UEmb _ (MT nD τ sig Unit (Elt F) ℕ UU ℕ)) := by
  unfold ER embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores and cells -/

/-- The runtime's barrier semaphore of collective id 0 (not scoped). -/
abbrev barS : Sem sig := (SemArray.scalar (sig.barrier 0 rfl) : Sems sig S_).sem
/-- The semaphore the body's scoped region allocates for the exit handshake. -/
abbrev exitS : Sems sig S_ := cc0_scoped0
abbrev upS : DmaSems sig S_ := cc0_scratch1
abbrev downS : DmaSems sig S_ := cc0_scratch2
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)
abbrev exitCell (c : Dev nD) : GSem nD τ sig := ((c : Thread nD τ), .reg exitS.sem)

/-- The kernel's own (scoped) semaphores, as the launch indexes them: the two local copies', send, receive, exit. -/
abbrev osem : Fin 5 → SemLoc sig := fun
  | 0 => .dma upS.sem | 1 => .dma downS.sem | 2 => .dma sendS.sem | 3 => .dma recvS.sem | 4 => .reg exitS.sem
/-- The exchange's four cells, as this proof indexes them: barrier, send, receive, exit. -/
abbrev csem : Fin 4 → SemLoc sig := fun
  | 0 => .reg barS | 1 => .dma sendS.sem | 2 => .dma recvS.sem | 3 => .reg exitS.sem
abbrev kcell (ck : Dev nD × Fin 4) : GSem nD τ sig := ((ck.1 : Thread nD τ), csem ck.2)

/-- What one copy of a 4096 × 1024 block credits, and what a wait naming such a block consumes. -/
def N : ℕ := (scrM : Memref sig .tc .vmem S4096x1024 .f32).view.dmaCredit
theorem N_pos : 0 < N := View.dmaCredit_pos _ (Shape.numel_pos fun a => by fin_cases a <;> decide)
/-- Every 4096 × 1024 view of the exchange credits that amount. -/
theorem N_out (d : Dev nD) : (outRows d).view.dmaCredit = N := rfl
theorem N_far (d : Dev nD) : (argFar d).view.dmaCredit = N := rfl
theorem N_near (d : Dev nD) : (argNear d).view.dmaCredit = N := rfl
theorem N_scr : (scrM : Memref sig .tc .vmem S4096x1024 .f32).view.dmaCredit = N := rfl
attribute [irreducible] N

/-! ## What the landings hand over -/

/-- The partner's result rows that device `c` fills, at their launch contents: what the partner's entry signal
    hands `c`. -/
def barPay (c : Dev nD) : sProp 𝕄 :=
  (outRows c).view.loc (peer c : Thread nD τ) ↦[(outRows c).view.set]{fullShare} o0 m (peer c)
/-- Device `c`'s source columns, back from its transfer. -/
def sendPay (c : Dev nD) : sProp 𝕄 :=
  (argFar c).view.loc (c : Thread nD τ) ↦[(argFar c).view.set]{fullShare} xA m c
/-- Device `c`'s result rows holding what its partner sent. -/
def recvPay (c : Dev nD) : sProp 𝕄 :=
  (outRows (peer c)).view.loc (c : Thread nD τ) ↦[(outRows (peer c)).view.set]{fullShare} landed m c

abbrev IsRing (g : GSem nD τ sig) : Prop :=
  g.1.2 = .tc ∧ (g.2 = .reg barS ∨ g.2 = .dma sendS.sem ∨ g.2 = .dma recvS.sem ∨ g.2 = .reg exitS.sem)

/-- One round, round 0, one duty a cell: a unit on the barrier and exit cells, the block's credit on the send and
    receive cells. -/
def Rd : Rounds.Schedule (GSem nD τ sig) Unit 𝕄 where
  duties g r := if r = 0 ∧ IsRing g then {()} else ∅
  unitless _ := False
  amount g _ _ := if g.2 = .reg barS ∨ g.2 = .reg exitS.sem then 1 else N
  payload g _ _ :=
    if g.2 = .reg barS then barPay m g.1.1
    else if g.2 = .dma sendS.sem then sendPay m g.1.1
    else if g.2 = .dma recvS.sem then recvPay m g.1.1
    else iprop(emp)
  amount_pos g _ _ _ := by
    by_cases h : g.2 = .reg barS ∨ g.2 = .reg exitS.sem
    · rw [if_pos h]; exact Nat.one_pos
    · rw [if_neg h]; exact N_pos

instance Rd_payload_storable (g : GSem nD τ sig) (r : ℕ) (d : Unit) :
    BI.Storable (upEmb : UEmb _ 𝕄) ((Rd (F := F) m).payload g r d) := by
  show BI.Storable upEmb (if g.2 = .reg barS then barPay m g.1.1 else if g.2 = .dma sendS.sem then sendPay m g.1.1
    else if g.2 = .dma recvS.sem then recvPay m g.1.1 else iprop(emp))
  unfold barPay sendPay recvPay
  (repeat' split) <;> infer_instance

/-- A round of one duty expects that duty's amount: stated over an abstract schedule and cell. -/
theorem expect_of_single {G D 𝕄' : Type} [DecidableEq G] [URA 𝕄'] (R : Rounds.Schedule G D 𝕄') (g : G) (r : ℕ) (d : D) (n : ℕ)
    (hd : R.duties g r = {d}) (ha : R.amount g r d = n) : R.expect g r = n := by
  unfold Schedule.expect Schedule.amountOf
  rw [hd, Finset.sum_singleton, ha]

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_exit : (SemLoc.dma sendS.sem : SemLoc sig) ≠ .reg exitS.sem := fun h => by cases h
theorem recv_ne_exit : (SemLoc.dma recvS.sem : SemLoc sig) ≠ .reg exitS.sem := fun h => by cases h
theorem exit_ne_bar : (SemLoc.reg exitS.sem : SemLoc sig) ≠ .reg barS := by decide
theorem bar_ne_exit : (SemLoc.reg barS : SemLoc sig) ≠ .reg exitS.sem := by decide
theorem send_ne_recv : (SemLoc.dma sendS.sem : SemLoc sig) ≠ .dma recvS.sem := by decide
theorem recv_ne_send : (SemLoc.dma recvS.sem : SemLoc sig) ≠ .dma sendS.sem := by decide
theorem exit_ne_send : (SemLoc.reg exitS.sem : SemLoc sig) ≠ .dma sendS.sem := fun h => by cases h
theorem exit_ne_recv : (SemLoc.reg exitS.sem : SemLoc sig) ≠ .dma recvS.sem := fun h => by cases h

omit [FloatOps F] in
theorem duties_bar : (Rd (F := F) m).duties (barCell c) 0 = {()} := by dsimp only [Rd]; exact if_pos ⟨rfl, rfl, .inl rfl⟩
omit [FloatOps F] in
theorem duties_send : (Rd (F := F) m).duties (sendCell c) 0 = {()} := by dsimp only [Rd]; exact if_pos ⟨rfl, rfl, .inr (.inl rfl)⟩
omit [FloatOps F] in
theorem duties_recv : (Rd (F := F) m).duties (recvCell c) 0 = {()} := by dsimp only [Rd]; exact if_pos ⟨rfl, rfl, .inr (.inr (.inl rfl))⟩
omit [FloatOps F] in
theorem duties_exit : (Rd (F := F) m).duties (exitCell c) 0 = {()} := by dsimp only [Rd]; exact if_pos ⟨rfl, rfl, .inr (.inr (.inr rfl))⟩
omit [FloatOps F] in
theorem duties_later (g : GSem nD τ sig) : ∀ r, 1 ≤ r → (Rd (F := F) m).duties g r = ∅ :=
  fun r hr => by dsimp only [Rd]; rw [if_neg fun h => by omega]

omit [FloatOps F] in
theorem amount_bar (u : Unit) : (Rd (F := F) m).amount (barCell c) 0 u = 1 := by dsimp only [Rd]; exact if_pos (.inl rfl)
omit [FloatOps F] in
theorem amount_exit (u : Unit) : (Rd (F := F) m).amount (exitCell c) 0 u = 1 := by dsimp only [Rd]; exact if_pos (.inr rfl)
omit [FloatOps F] in
theorem amount_send (u : Unit) : (Rd (F := F) m).amount (sendCell c) 0 u = N := by
  dsimp only [Rd]; exact if_neg (fun h => h.elim send_ne_bar send_ne_exit)
omit [FloatOps F] in
theorem amount_recv (u : Unit) : (Rd (F := F) m).amount (recvCell c) 0 u = N := by
  dsimp only [Rd]; exact if_neg (fun h => h.elim recv_ne_bar recv_ne_exit)

omit [FloatOps F] in
theorem expect_bar : (Rd (F := F) m).expect (barCell c) 0 = 1 := expect_of_single _ _ _ () _ (duties_bar m c) (amount_bar m c ())
omit [FloatOps F] in
theorem expect_exit : (Rd (F := F) m).expect (exitCell c) 0 = 1 := expect_of_single _ _ _ () _ (duties_exit m c) (amount_exit m c ())
omit [FloatOps F] in
theorem expect_send : (Rd (F := F) m).expect (sendCell c) 0 = N := expect_of_single _ _ _ () _ (duties_send m c) (amount_send m c ())
omit [FloatOps F] in
theorem expect_recv : (Rd (F := F) m).expect (recvCell c) 0 = N := expect_of_single _ _ _ () _ (duties_recv m c) (amount_recv m c ())

omit [FloatOps F] in
theorem payload_bar (u : Unit) : (Rd (F := F) m).payload (barCell c) 0 u = barPay m c := by dsimp only [Rd]; exact if_pos rfl
omit [FloatOps F] in
theorem payload_send (u : Unit) : (Rd (F := F) m).payload (sendCell c) 0 u = sendPay m c := by
  dsimp only [Rd]; rw [if_neg send_ne_bar]; exact if_pos rfl
omit [FloatOps F] in
theorem payload_recv (u : Unit) : (Rd (F := F) m).payload (recvCell c) 0 u = recvPay m c := by
  dsimp only [Rd]; rw [if_neg recv_ne_bar, if_neg recv_ne_send]; exact if_pos rfl
omit [FloatOps F] in
theorem payload_exit (u : Unit) : (Rd (F := F) m).payload (exitCell c) 0 u = iprop(emp) := by
  dsimp only [Rd]; rw [if_neg exit_ne_bar, if_neg exit_ne_send, if_neg exit_ne_recv]

omit [FloatOps F] in
theorem rest_bar : bigSep ((Rd (F := F) m).duties (barCell c) 0 \ ∅) (fun u => (Rd (F := F) m).payload (barCell c) 0 u) = barPay m c := by
  rw [Finset.sdiff_empty, duties_bar, bigSep_singleton, payload_bar]
omit [FloatOps F] in
theorem rest_send : bigSep ((Rd (F := F) m).duties (sendCell c) 0 \ ∅) (fun u => (Rd (F := F) m).payload (sendCell c) 0 u) = sendPay m c := by
  rw [Finset.sdiff_empty, duties_send, bigSep_singleton, payload_send]
omit [FloatOps F] in
theorem rest_recv : bigSep ((Rd (F := F) m).duties (recvCell c) 0 \ ∅) (fun u => (Rd (F := F) m).payload (recvCell c) 0 u) = recvPay m c := by
  rw [Finset.sdiff_empty, duties_recv, bigSep_singleton, payload_recv]
omit [FloatOps F] in
theorem rest_exit : bigSep ((Rd (F := F) m).duties (exitCell c) 0 \ ∅) (fun u => (Rd (F := F) m).payload (exitCell c) 0 u) = iprop(emp) := by
  rw [Finset.sdiff_empty, duties_exit, bigSep_singleton, payload_exit]

end Sched

/-! ## What each device owes at launch; the levels -/

/-- Device `c` owes its partner's exit cell a unit (its last signal), its partner's receive cell the block's
    credit (its transfer), and its partner's barrier cell a unit (its first signal). -/
def O₂ (c : Dev nD) : CellTallies nD τ sig Unit := tallyAt (exitCell (peer c)) () 1
def O₁ (c : Dev nD) : CellTallies nD τ sig Unit := O₂ c + tallyAt (recvCell (peer c)) () N
def O₀ (c : Dev nD) : CellTallies nD τ sig Unit := O₁ c + tallyAt (barCell (peer c)) () 1

def L (g : GSem nD τ sig) : Finset Unit := if g.1.2 = .tc then {()} else ∅
/-- send cells (and the local copies' semaphores) at 0, barrier cells at 1, receive cells at 2, exit cells at 3. -/
def lv (g : GSem nD τ sig) (_ : Unit) : ℕ :=
  if g.2 = .reg barS then 1 else if g.2 = .dma recvS.sem then 2 else if g.2 = .reg exitS.sem then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv (c : Dev nD) (u : Unit) : lv (recvCell c) u = 2 := by dsimp only [lv]; rw [if_neg recv_ne_bar, if_pos rfl]
theorem lv_exit (c : Dev nD) (u : Unit) : lv (exitCell c) u = 3 := by
  dsimp only [lv]; rw [if_neg exit_ne_bar, if_neg exit_ne_recv, if_pos rfl]
theorem lv_send (c : Dev nD) (u : Unit) : lv (sendCell c) u = 0 := by
  dsimp only [lv]; rw [if_neg send_ne_bar, if_neg send_ne_recv, if_neg send_ne_exit]

theorem O₂_pos {c : Dev nD} {g : GSem nD τ sig} {u : Unit} (h : 0 < O₂ c g u) : g = exitCell (peer c) := by
  unfold O₂ at h
  rw [tallyAt_apply] at h
  by_contra hn
  rw [if_neg (fun h' => hn h'.1)] at h
  exact Nat.lt_irrefl 0 h

theorem O₁_pos {c : Dev nD} {g : GSem nD τ sig} {u : Unit} (h : 0 < O₁ c g u) :
    g = exitCell (peer c) ∨ g = recvCell (peer c) := by
  unfold O₁ O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- The barrier wait, owing the partner's receive and exit cells: both above the barrier. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> (rw [L_tc]; exact Finset.mem_singleton_self _))
    (fun p hp => by rw [Finset.mem_singleton.mp hp]; exact le_of_eq (lv_bar c ()))
    (fun g u hg => by
      rcases O₁_pos hg with rfl | rfl
      · rw [lv_exit]; decide
      · rw [lv_recv]; decide)

omit [FloatOps F] in
/-- Any wait at level at most 2, owing only the partner's exit cell. -/
theorem mayWait_low (c : Dev nD) (sm : SemLoc sig) (hsm : lv ((c : Thread nD τ), sm) () ≤ 2) :
    (levAts L lv : sProp 𝕄) ⊢ MayWait (c : Thread nD τ) sm () (O₂ c) :=
  MayOwe.of_cut (L := L) (lev := lv) 2 (fun p hp => by rw [Finset.mem_singleton.mp hp, L_tc]; exact Finset.mem_singleton_self _)
    (fun g u hg => by rw [O₂_pos hg, L_tc]; exact Finset.mem_singleton_self _)
    (fun p hp => by rw [Finset.mem_singleton.mp hp]; exact hsm)
    (fun g u hg => by rw [O₂_pos hg, lv_exit]; decide)

end Cert.KernelIdeal.A2A

end
-- ==== Proof.KernelIdeal.Data.lean ====
/-
  What a device's body starts from and ends with: the interface between the body's proof and the launch.

  Before the one grid point a device holds the invariants of its own four cells and of the three cells of its
  partner it pays, its positions at round 0, the tokens of the four duties it pays (the partner's barrier, receive
  and exit duties and its own send duty), the credit its own waits consume, its two local-copy semaphores at zero,
  and its argument and result arrays whole. After it: the argument array unchanged, the result array holding the
  half it kept beside the half its partner sent, and its five own semaphores at zero again.
-/
import proofs.«900635_g7700000000000636_dist_a2a_v7x_xyz2x2x4_x_m4096_n1024_f32_1_alg».proof.Proof.KernelIdeal.Proto

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The cells' invariants device `c`'s body opens, under the names `K` the launch allocated them at: its own four,
    and its partner's barrier, receive and exit cells. -/
def invs (K : Dev nD × Fin 4 → ℕ) (c : Dev nD) : sProp 𝕄 :=
  iprop(cellInv ER (Rd m) (K (c, 0)) (barCell c) ∗ cellInv ER (Rd m) (K (c, 1)) (sendCell c)
    ∗ cellInv ER (Rd m) (K (c, 2)) (recvCell c) ∗ cellInv ER (Rd m) (K (c, 3)) (exitCell c)
    ∗ cellInv ER (Rd m) (K (peer c, 0)) (barCell (peer c)) ∗ cellInv ER (Rd m) (K (peer c, 2)) (recvCell (peer c))
    ∗ cellInv ER (Rd m) (K (peer c, 3)) (exitCell (peer c)))

instance invs_persistent (K : Dev nD × Fin 4 → ℕ) (c : Dev nD) : BI.Persistent (invs m K c) := by unfold invs; infer_instance

/-- The tokens of the duties device `c` pays. -/
def payToks (c : Dev nD) : sProp 𝕄 :=
  iprop(dutyTok ER (barCell (peer c)) 0 () ∗ dutyTok ER (recvCell (peer c)) 0 () ∗ dutyTok ER (exitCell (peer c)) 0 ()
    ∗ dutyTok ER (sendCell c) 0 ())

/-- The exchange's ghost state device `c` starts from. -/
def ghost (K : Dev nD × Fin 4 → ℕ) (c : Dev nD) : sProp 𝕄 :=
  iprop(invs m K c
    ∗ (atPos ER (barCell c) 0 ∅ 0 ∗ atPos ER (sendCell c) 0 ∅ 0 ∗ atPos ER (recvCell c) 0 ∅ 0 ∗ atPos ER (exitCell c) 0 ∅ 0)
    ∗ (reached ER (barCell (peer c)) 0 ∗ reached ER (recvCell (peer c)) 0 ∗ reached ER (exitCell (peer c)) 0 ∗ reached ER (sendCell c) 0)
    ∗ payToks c)

/-- The two local copies' semaphores, at zero. -/
def localSems (c : Dev nD) : sProp 𝕄 :=
  iprop(semVal ((c : Thread nD τ), .dma upS.sem) 0 ∗ semVal ((c : Thread nD τ), .dma downS.sem) 0)

/-- The device's two arrays, whole. -/
def arrays (c : Dev nD) (o : Buf (Elt F) ((c : Thread nD τ).loc main_v1)) : sProp 𝕄 :=
  iprop((((c : Thread nD τ).loc main_arg0) ↦{fullShare} xA m c) ∗ (((c : Thread nD τ).loc main_v1) ↦{fullShare} o))

/-- What device `c`'s body starts from, the scratch buffer apart. -/
def start (c : Dev nD) : sProp 𝕄 :=
  iprop((∃ K, ghost m K c)
    ∗ (cred (tallyAt (barCell c) () 1) ∗ cred (tallyAt (recvCell c) () N) ∗ cred (tallyAt (exitCell c) () 1))
    ∗ levAts L lv ∗ localSems c ∗ arrays m c (o0 m c))

def Φ₀ (c : Dev nD) : sProp 𝕄 :=
  iprop(start m c ∗ ∃ f : Buf (Elt F) ((c : Thread nD τ).loc cc0_scratch0), ((c : Thread nD τ).loc cc0_scratch0) ↦{fullShare} f)

/-- The five own semaphores, at zero. -/
def ownZero (c : Dev nD) : sProp 𝕄 :=
  iprop(localSems c ∗ semVal (sendCell c) 0 ∗ semVal (recvCell c) 0 ∗ semVal (exitCell c) 0)

def Φ₁ (c : Dev nD) : sProp 𝕄 :=
  iprop(arrays m c (outVal m c) ∗ ownZero c
    ∗ ∃ f : Buf (Elt F) ((c : Thread nD τ).loc cc0_scratch0), ((c : Thread nD τ).loc cc0_scratch0) ↦{fullShare} f)

/-- The pipeline's proof data: no window; the invariant before and after the one point; what the device owes. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.A2A

end
-- ==== Proof.KernelIdeal.Launch.lean ====
/-
  The launch of the exchange.

  The rounds library's launch element pays for the round state, the position, the reached mark and the one duty
  token of each of the four cells of every device. The global step at launch puts each device's barrier, send,
  receive and exit semaphores, all at zero, under their cells' invariants and leaves the two local-copy semaphores
  as they are; the duty tokens of the barrier, receive and exit cells go to the partner, which pays those duties,
  and the send cell's token stays with its device, which pays it. What every device owes at launch — a unit to its
  partner's barrier cell, the block's credit to its partner's receive cell, a unit to its partner's exit cell —
  comes back to it as the credit its own three waits consume. From each device's body, proved elsewhere, the launch
  theorem then gives the run: it terminates, the result array of each device ends holding the half it kept beside
  the half its partner sent, and its argument array is unchanged.
-/
import proofs.«900635_g7700000000000636_dist_a2a_v7x_xyz2x2x4_x_m4096_n1024_f32_1_alg».proof.Proof.KernelIdeal.Data
import proofs.«900635_g7700000000000636_dist_a2a_v7x_xyz2x2x4_x_m4096_n1024_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts of the kernel's own semaphores -/

theorem ownSemFacts : Pipeline.OwnSemFacts cfg0.spec osem := by decide

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-! ## The launch element -/

def ringCells : Finset (GSem nD τ sig) := Finset.univ.map ⟨kcell, kcell_injective⟩
def ringToks : Finset (GSem nD τ sig × ℕ × Unit) :=
  Finset.univ.map ⟨fun ck : Dev nD × Fin 4 => (kcell ck, 0, ()), fun _ _ h => kcell_injective (congrArg Prod.fst h)⟩

/-- The launch element: the pipeline library's cells, the exchange's own cells, and nothing for the local copies'
    counters, which are allocated as they are needed. -/
def u₀ : UU := (initOf (Pipeline.cells cfgs cellOf_inj) (Pipeline.launchToks cfgs cellOf_inj), (initOf ringCells ringToks, 1))

/-- The duty tokens of device `c`'s own cells. -/
def toks (c : Dev nD) : sProp 𝕄 :=
  iprop(dutyTok ER (barCell c) 0 () ∗ dutyTok ER (sendCell c) 0 () ∗ dutyTok ER (recvCell c) 0 () ∗ dutyTok ER (exitCell c) 0 ())

/-- What the launch element deals device `c`. -/
def G (c : Dev nD) : sProp 𝕄 :=
  iprop((bigSep Finset.univ fun k : Fin 4 => roundState ER (Rd m) (kcell (c, k)) 0)
    ∗ (bigSep Finset.univ fun k : Fin 4 => iprop(atPos ER (kcell (c, k)) 0 ∅ 0 ∗ reached ER (kcell (c, k)) 0)) ∗ toks c)

/-- What the global step makes of it: the exchange's ghost state, and the two local-copy semaphores passed through. -/
def G' (c : Dev nD) : sProp 𝕄 := iprop((∃ K, ghost m K c) ∗ localSems c)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 4 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin4]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: the four cells' invariants allocated, the tokens dealt -/

omit [FloatOps F] in
/-- The kernel's own five semaphores, one by one; -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma upS.sem) 0 ∗ semVal ((c : Thread nD τ), .dma downS.sem) 0
        ∗ semVal (sendCell c) 0 ∗ semVal (recvCell c) 0 ∗ semVal (exitCell c) 0) := by
  rw [Pipeline.ownSems0_eq_of_list c osem [0, 1, 2, 3, 4] (by decide) (by decide)]; rfl
omit [FloatOps F] in
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 4 => semVal (kcell (c, k)) 0 : sProp 𝕄) ∗ localSems c) := by
  rw [ownSems0_eq, unscopedSems0_eq, bigSep_fin4]
  unfold localSems
  iintro ⟨⟨HU, HD, HS, HV, HE⟩, HB⟩
  isplitr [HU HD]
  · isplitl [HB]; · iexact HB
    isplitl [HS]; · iexact HS
    isplitl [HV] <;> iassumption
  · isplitl [HU] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 4 => semVal (kcell (c, k)) 0) ∗ bigSep Finset.univ fun k : Fin 4 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- The persistent records every device may keep: every cell's invariant, and that every cell has reached round 0. -/
def records (K : Dev nD × Fin 4 → ℕ) : sProp 𝕄 :=
  iprop((bigSep Finset.univ fun ck : Dev nD × Fin 4 => cellInv ER (Rd m) (K ck) (kcell ck))
    ∗ bigSep Finset.univ fun ck : Dev nD × Fin 4 => reached ER (kcell ck) 0)

instance records_persistent (K : Dev nD × Fin 4 → ℕ) : BI.Persistent (records m K) := by unfold records; infer_instance

omit [FloatOps F] in
theorem inv_at (K : Dev nD × Fin 4 → ℕ) (ck : Dev nD × Fin 4) :
    (bigSep Finset.univ fun ck : Dev nD × Fin 4 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device `c`: its positions, the tokens of the duties it pays, its local-copy semaphores. -/
def linear (c : Dev nD) : sProp 𝕄 :=
  iprop((atPos ER (barCell c) 0 ∅ 0 ∗ atPos ER (sendCell c) 0 ∅ 0 ∗ atPos ER (recvCell c) 0 ∅ 0 ∗ atPos ER (exitCell c) 0 ∅ 0)
    ∗ payToks c ∗ localSems c)

omit [FloatOps F] in
theorem ghost_intro (K : Dev nD × Fin 4 → ℕ) (c : Dev nD) : iprop(records m K ∗ linear c) ⊢ G' m c := by
  unfold records linear G' ghost invs
  iintro ⟨⟨#HI, #HR⟩, Hat, Htok, Hloc⟩
  isplitr [Hloc]
  · iexists K
    isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      isplitr; · iapply (inv_at m K (peer c, 0)); iexact HI
      isplitr; · iapply (inv_at m K (peer c, 2)); iexact HI
      iapply (inv_at m K (peer c, 3)); iexact HI
    isplitl [Hat]; · iexact Hat
    isplitr [Htok]
    · isplitr; · iapply (reached_at (F := F) (peer c, 0)); iexact HR
      isplitr; · iapply (reached_at (F := F) (peer c, 2)); iexact HR
      isplitr; · iapply (reached_at (F := F) (peer c, 3)); iexact HR
      iapply (reached_at (F := F) (c, 1)); iexact HR
    iexact Htok
  · iexact Hloc

omit [FloatOps F] in
/-- The barrier, receive and exit tokens cross to the partner; the send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄)),
    bigSep_univ_equiv swap (fun c : Dev nD => (dutyTok ER (exitCell c) 0 () : sProp 𝕄))]
  iintro ⟨HB, HS, HV, HE⟩
  isplitl [HB]; · iexact HB
  isplitl [HV]; · iexact HV
  isplitl [HE]; · iexact HE
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro :
    iprop((bigSep Finset.univ fun c : Dev nD => bigSep Finset.univ fun k : Fin 4 => (atPos ER (kcell (c, k)) 0 ∅ 0 : sProp 𝕄))
        ∗ (bigSep Finset.univ fun c : Dev nD => (payToks c : sProp 𝕄)) ∗ (bigSep Finset.univ fun c : Dev nD => (localSems c : sProp 𝕄)))
      ⊢ bigSep Finset.univ fun c : Dev nD => (linear c : sProp 𝕄) := by
  rw [← bigSep_sep', ← bigSep_sep']
  refine bigSep_mono fun c _ => ?_
  unfold linear
  rw [bigSep_fin4]
  exact BI.Entails.refl _

omit [FloatOps F] in
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 4 => iprop(∃ κ : ℕ, cellInv ER (Rd m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok, Hloc⟩
  ihave HK := (BI.bigSep_exists_pi Finset.univ (fun (ck : Dev nD × Fin 4) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_intro (F := F))
    isplitl [Hat]; · iexact Hat
    isplitl [Htk]; · iexact Htk
    iexact Hloc

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩
omit [FloatOps F] in
theorem eq_peer_iff {d c : Dev nD} : Iff (peer d = c) (d = peer c) :=
  ⟨fun h => by rw [← h, peer_peer], fun h => by rw [h, peer_peer]⟩

omit [FloatOps F] in
/-- A tally at the partner's cell, read at a device's cell on the same semaphore. -/
theorem tally_peer (sm : SemLoc sig) (n : ℕ) (d c : Dev nD) :
    (tallyAt (((peer d : Dev nD) : Thread nD τ), sm) () n : CellTallies nD τ sig Unit) ((c : Thread nD τ), sm) () = if d = peer c then n else 0 := by
  rw [tallyAt_apply]
  by_cases h : d = peer c
  · subst h; rw [peer_peer, if_pos ⟨rfl, rfl⟩, if_pos rfl]
  · rw [if_neg (fun ⟨h1, _⟩ => h (eq_peer_iff.mp (cell_eq_iff.mp h1).symm)), if_neg h]

omit [FloatOps F] in
/-- A tally at a cell on one semaphore, read at a cell on another, is nothing. -/
theorem tally_other {sm sm' : SemLoc sig} (hne : sm' ≠ sm) (n : ℕ) (d c : Dev nD) :
    (tallyAt (((d : Dev nD) : Thread nD τ), sm) () n : CellTallies nD τ sig Unit) ((c : Thread nD τ), sm') () = 0 := by
  rw [tallyAt_ne_cell (fun h => hne (congrArg Prod.snd h)), Finsupp.zero_apply]

omit [FloatOps F] in
theorem O₀_apply (d : Dev nD) (g : GSem nD τ sig) :
    O₀ d g () = tallyAt (exitCell (peer d)) () 1 g () + tallyAt (recvCell (peer d)) () N g () + tallyAt (barCell (peer d)) () 1 g () := by
  unfold O₀ O₁ O₂
  rw [Pi.add_apply, Finsupp.add_apply, Pi.add_apply, Finsupp.add_apply]

omit [FloatOps F] in
theorem owed_bar (d c : Dev nD) : O₀ d (barCell c) () = if d = peer c then 1 else 0 := by
  rw [O₀_apply, tally_other bar_ne_exit, tally_other recv_ne_bar.symm, tally_peer]
  simp only [Nat.zero_add, Nat.add_zero]
omit [FloatOps F] in
theorem owed_recv (d c : Dev nD) : O₀ d (recvCell c) () = if d = peer c then N else 0 := by
  rw [O₀_apply, tally_other recv_ne_exit, tally_peer, tally_other recv_ne_bar]
  simp only [Nat.zero_add, Nat.add_zero]
omit [FloatOps F] in
theorem owed_exit (d c : Dev nD) : O₀ d (exitCell c) () = if d = peer c then 1 else 0 := by
  rw [O₀_apply, tally_peer, tally_other recv_ne_exit.symm, tally_other exit_ne_bar]
  simp only [Nat.zero_add, Nat.add_zero]

omit [FloatOps F] in
/-- What all devices together owe a cell on semaphore `sm`, when device `d` owes it `n` exactly if it is the partner. -/
theorem launch_of (sm : SemLoc sig) (n : ℕ) (c : Dev nD) (h : ∀ d : Dev nD, O₀ d ((c : Thread nD τ), sm) () = if d = peer c then n else 0) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

omit [FloatOps F] in
theorem creds (c : Dev nD) : (Pipeline.launchCred O₀ c : sProp 𝕄)
    ⊢ iprop(cred (tallyAt (barCell c) () 1) ∗ cred (tallyAt (recvCell c) () N) ∗ cred (tallyAt (exitCell c) () 1)) := by
  unfold Pipeline.launchCred
  refine (bigSep_subset (t := ({SemLoc.reg barS, SemLoc.dma recvS.sem, SemLoc.reg exitS.sem} : Finset (SemLoc sig))) (Finset.subset_univ _)).trans ?_
  rw [bigSep_insert (by decide), bigSep_insert (by decide), bigSep_singleton,
    launch_of (.reg barS) 1 c (fun d => owed_bar d c), launch_of (.dma recvS.sem) N c (fun d => owed_recv d c),
    launch_of (.reg exitS.sem) 1 c (fun d => owed_exit d c)]
  exact BI.Entails.refl _

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Harg, Hout⟩, Hlev, Hcr, -, HG⟩
  ihave Hc := (creds (F := F) c) $$ Hcr
  unfold G'
  icases HG with ⟨HG, Hloc⟩
  imodintro
  unfold start arrays
  isplitl
  · isplitl [HG]; · iexact HG
    isplitl [Hc]; · iexact Hc
    isplitl [Hlev]; · iexact Hlev
    isplitl [Hloc]; · iexact Hloc
    isplitl [Harg]; · iexact Harg
    iexact Hout
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(arrays m c (outVal m c) ∗ Pipeline.ownSems0 osem c ∗ Pipeline.scopedRest cfg0.spec c) := by
  rw [show (dats m 0 c).Φ (Fin.last cfg0.N) = Φ₁ m c from rfl, scopedRest0_eq, ownSems0_eq]
  unfold Φ₁ ownZero localSems
  iintro ⟨Harr, ⟨⟨HU, HD⟩, HS, HV, HE⟩, Hscr⟩
  isplitl [Harr]; · iexact Harr
  isplitr [Hscr]
  · isplitl [HU]; · iexact HU
    isplitl [HD]; · iexact HD
    isplitl [HS]; · iexact HS
    isplitl [HV] <;> iassumption
  · iexact Hscr

theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- At the compiled mesh of sixteen devices, for any float values, from any memory with zero counters: if every
    device's body meets its obligation, every weakly fair execution of @main terminates, and every final state has
    each device's result array holding the half it kept beside the half its partner sent, and its argument array
    as launched. -/
theorem run_main (hbody : ∀ c : Dev nD, BodyObligation (dats (F := F) m 0 c) (defs₀ (F := F)) 𝒱₀ () Set.univ) :
    θ_run defs (onTc (τ := τ) (main (F := F))) (s₀ m ρ) (fun r => ∀ c : Dev nD,
      r.2.mem ((c.tc : Thread nD τ).loc main_v1) = outVal m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb embR _ _) $$ HX
      icases HX' with ⟨HR, -⟩
      imod (fund_ring m) $$ HR with HG
      imodintro
      isplitl [HP] <;> iassumption)
    (hglob := glob m)
    (hA := fun _ w => w.elim0) (hpf := fun _ k => k.elim0)
    (X := start m) (Y := fun c => arrays m c (outVal m c)) (Z := fun _ => iprop(emp))
    (hX := start_intro m ρ) (hin := phi0_intro m) (hout := phi1_exit m)
    (QY := fun c s => s.mem ((c.tc : Thread nD τ).loc main_v1) = outVal m c ∧ s.mem ((c.tc : Thread nD τ).loc main_arg0) = xA m c)
    (hY := fun c s' => by
      unfold arrays
      iintro ⟨⟨Ha, Ho⟩, -, HSI⟩
      icombine HSI Ha gives %ha
      icombine HSI Ho gives %ho
      imodintro
      isplitr; · ipureintro; exact ⟨Buf.eq_of_forall_mem_univ ho, Buf.eq_of_forall_mem_univ ha⟩
      iexact HSI)
    (hQ := fun _ h c => (h c).2.2)

/-- info: 'Cert.KernelIdeal.A2A.run_main' depends on axioms: [propext, Classical.choice, Quot.sound] -/
#guard_msgs in #print axioms run_main

end Cert.KernelIdeal.A2A

end
-- ==== Proof.KernelIdeal.Geom.lean ====
/-
  The geometry of the slices.

  A device's first mesh coordinate q = c / 8 is 0 or 1 and its partner's is 1 - q. The result array's row slice of
  device d starts at row 4096 (d / 8); the argument's far column slice at column 1024 - 1024 (d / 8), its near
  column slice at column 1024 (d / 8). Hence a device's row slice and its partner's do not meet and together
  cover the result array, and the near and far column slices of one device do not meet.
-/
import proofs.«900635_g7700000000000636_dist_a2a_v7x_xyz2x2x4_x_m4096_n1024_f32_1_alg».proof.Proof.KernelIdeal.Vals
import Idealize.ShloMosaic.Lib.Pipeline.Value
import Idealize.ShloMosaic.Lib.Writes

noncomputable section

namespace Cert.KernelIdeal.A2A

open Cert.KernelIdeal Cert.KernelIdeal.Gen Idealize.ShloMosaic Idealize.ShloMosaic.TcCoe Idealize.SL.Sem

/-! ## The first mesh coordinate -/

/-- The first mesh coordinate is 0 or 1, -/
theorem row_le (c : Dev nD) : c.val / 8 ≤ 1 := by have hc : c.val < 16 := c.isLt; omega
/-- and the partner has the other one. -/
theorem peer_row (c : Dev nD) : (peer c).val / 8 = 1 - c.val / 8 := by
  have hc : c.val < 16 := c.isLt
  show (c.val + 8) % 16 / 8 = 1 - c.val / 8
  omega

/-! ## The slices' offsets, coordinate by coordinate -/

theorem off1_0 (d : Dev nD) : k0_off1 d 0 = 4096 * (d.val / 8) := congrFun (k0_off1_eq d) 0
theorem off1_1 (d : Dev nD) : k0_off1 d 1 = 0 := congrFun (k0_off1_eq d) 1
theorem off2_0 (d : Dev nD) : k0_off2 d 0 = 0 := congrFun (k0_off2_eq d) 0
theorem off2_1 (d : Dev nD) : k0_off2 d 1 = 1024 - 1024 * (d.val / 8) := congrFun (k0_off2_eq d) 1
theorem off3_0 (d : Dev nD) : k0_off3 d 0 = 0 := congrFun (k0_off3_eq d) 0
theorem off3_1 (d : Dev nD) : k0_off3 d 1 = 1024 * (d.val / 8) := congrFun (k0_off3_eq d) 1

/-! ## The two row slices cover the result array, and do not meet -/

/-- An index of the result array whose row lies in device `d`'s 4096 rows is under `d`'s row slice. -/
theorem exists_rows (d : Dev nD) (i : S8192x1024.Idx) (hlo : k0_off1 d 0 ≤ (i 0).val)
    (hhi : (i 0).val < k0_off1 d 0 + 4096) : ∃ y : S4096x1024.Idx, (outRows d).view.emb y = i := by
  refine ⟨Shape.pair ⟨(i 0).val - k0_off1 d 0, by show _ < 4096; omega⟩ ⟨(i 1).val, (i 1).isLt⟩, ?_⟩
  funext b; apply Fin.ext; revert b
  refine Fin.forall_fin_two.mpr ⟨?_, ?_⟩
  · show k0_off1 d 0 + 1 * ((i 0).val - k0_off1 d 0) = (i 0).val
    omega
  · show k0_off1 d 1 + 1 * (i 1).val = (i 1).val
    rw [off1_1]; omega

/-- Every index of the result array is under the device's own row slice or under its partner's. -/
theorem cover (c : Dev nD) (i : S8192x1024.Idx) :
    (∃ y : S4096x1024.Idx, (outRows c).view.emb y = i) ∨ (∃ y : S4096x1024.Idx, (outRows (peer c)).view.emb y = i) := by
  have hi : (i 0).val < 8192 := (i 0).isLt
  have hq := row_le c
  by_cases hc : k0_off1 c 0 ≤ (i 0).val ∧ (i 0).val < k0_off1 c 0 + 4096
  · exact Or.inl (exists_rows c i hc.1 hc.2)
  · refine Or.inr (exists_rows (peer c) i ?_ ?_) <;>
      (rw [off1_0] at hc ⊢; rw [peer_row]; omega)

/-- The partner's rows are none of the device's own. -/
theorem not_mem_own (c : Dev nD) (y : S4096x1024.Idx) :
    (outRows (peer c)).view.emb y ∉ (outRows c).view.setOn Finset.univ := by
  have hy : (y 0).val < 4096 := (y 0).isLt
  have hq := row_le c
  have hset : (outRows c).view.set = (Rect.unit (s := S8192x1024) (k0_off1 c) S4096x1024.size (k0_off1_inb c)).set :=
    View.set_slice_whole main_v1 _
  rw [View.setOn_univ, hset, Rect.mem_set_unit]
  intro hmem
  have h0 : k0_off1 c 0 ≤ k0_off1 (peer c) 0 + 1 * (y 0).val
      ∧ k0_off1 (peer c) 0 + 1 * (y 0).val < k0_off1 c 0 + 4096 := hmem 0
  rw [off1_0, off1_0, peer_row] at h0
  omega

/-! ## The slices as sets -/

/-- An element is under a view exactly when it is the image of one of the view's indices. -/
theorem mem_set_iff {sig' : RefSig} {κ : Kind} {sp : Space} {S : Shape} {e : EltTy} (v : View sig' κ sp S e) (i : v.ty.Idx) :
    i ∈ v.set ↔ ∃ y : S.Idx, v.emb y = i :=
  ⟨fun h => View.exists_emb_of_mem_set v h, fun ⟨y, hy⟩ => hy ▸ v.emb_mem_set y⟩

/-- A device's own result rows and its partner's do not meet. -/
theorem rows_disjoint (c : Dev nD) : Disjoint (outRows (peer c)).view.set (outRows c).view.set := by
  rw [Finset.disjoint_left]
  intro i hi
  obtain ⟨y, rfl⟩ := (mem_set_iff _ i).mp hi
  have := not_mem_own c y
  rwa [View.setOn_univ] at this

/-- The near columns are none of the far ones. -/
theorem not_mem_far (c : Dev nD) (y : S4096x1024.Idx) : (argNear c).view.emb y ∉ (argFar c).view.set := by
  have hy : (y 1).val < 1024 := (y 1).isLt
  have hq := row_le c
  have hset : (argFar c).view.set = (Rect.unit (s := S4096x2048) (k0_off2 c) S4096x1024.size (k0_off2_inb c)).set :=
    View.set_slice_whole main_arg0 _
  rw [hset, Rect.mem_set_unit]
  intro hmem
  have h1 : k0_off2 c 1 ≤ k0_off3 c 1 + 1 * (y 1).val
      ∧ k0_off3 c 1 + 1 * (y 1).val < k0_off2 c 1 + 1024 := hmem 1
  rw [off2_1, off3_1] at h1
  omega

/-- A device's near and far argument columns do not meet. -/
theorem cols_disjoint (c : Dev nD) : Disjoint (argNear c).view.set (argFar c).view.set := by
  rw [Finset.disjoint_left]
  intro i hi
  obtain ⟨y, rfl⟩ := (mem_set_iff _ i).mp hi
  exact not_mem_far c y

/-! ## Reading the result array through the slices -/

/-- On its own rows the result holds the half the device kept. -/
theorem outVal_own {F : FTy → Type} [FloatOps F] (m : (ℓ : Loc nD τ sig) → Buf (Elt F) ℓ) (c : Dev nD)
    (y : S4096x1024.Idx) : outVal m c ((outRows c).view.emb y) = kept m c y := by
  unfold outVal
  rw [View.write_emb_of_mem _ _ (Finset.mem_univ y)]
  rfl

/-- On its partner's rows the result holds the half the partner sent. -/
theorem outVal_far {F : FTy → Type} [FloatOps F] (m : (ℓ : Loc nD τ sig) → Buf (Elt F) ℓ) (c : Dev nD)
    (y : S4096x1024.Idx) : outVal m c ((outRows (peer c)).view.emb y) = sent m (peer c) y := by
  unfold outVal
  rw [View.write_of_not_mem _ _ _ (not_mem_own c y)]
  unfold landed
  rw [View.write_emb_of_mem _ _ (Finset.mem_univ y)]
  rfl

/-- The half kept is the device's block read at the near columns, -/
theorem kept_apply {F : FTy → Type} [FloatOps F] (m : (ℓ : Loc nD τ sig) → Buf (Elt F) ℓ) (c : Dev nD)
    (y : S4096x1024.Idx) : kept m c y = xA m c ((argNear c).view.emb y) := rfl

/-- the half sent, at the far columns. -/
theorem sent_apply {F : FTy → Type} [FloatOps F] (m : (ℓ : Loc nD τ sig) → Buf (Elt F) ℓ) (c : Dev nD)
    (y : S4096x1024.Idx) : sent m c y = xA m c ((argFar c).view.emb y) := rfl

/-! ## The result array's pieces, as the run leaves them, all hold the final contents -/

/-- Reading, at an index of a view, what a write through the view's whole rectangle left. -/
theorem writes_whole_apply {sig' : RefSig} {κ : Kind} {sp : Space} {S : Shape} {e : EltTy} {Val : EltTy → Type}
    (v : View sig' κ sp S e) (f : v.ty.Contents Val) (w : (Rect.whole S).shape.Idx → Val e) (x : (Rect.whole S).shape.Idx) :
    v.read Val (v.writes Val f [⟨Rect.whole S, w⟩]) ((Rect.whole S).emb x) = w x :=
  View.read_writes_cons_emb v f (Rect.whole S) w [] x

/-- On the partner's rows the landed contents are already final: the device's own rows are written elsewhere. -/
theorem far_rows_eq {F : FTy → Type} [FloatOps F] (m : (ℓ : Loc nD τ sig) → Buf (Elt F) ℓ) (c : Dev nD)
    (i : Idx ((c : Thread nD τ).loc main_v1)) (hi : i ∈ (outRows (peer c)).view.set) : landed m c i = outVal m c i := by
  obtain ⟨y, rfl⟩ := (mem_set_iff (outRows (peer c)).view i).mp hi
  unfold outVal
  rw [View.write_of_not_mem _ _ _ (not_mem_own c y)]

/-- Off both row slices the launch contents are never touched. -/
theorem rest_rows_eq {F : FTy → Type} [FloatOps F] (m : (ℓ : Loc nD τ sig) → Buf (Elt F) ℓ) (c : Dev nD)
    (i : Idx ((c : Thread nD τ).loc main_v1))
    (hi : i ∈ (Finset.univ \ (outRows (peer c)).view.set) \ (outRows c).view.set) : o0 m c i = outVal m c i := by
  have h1 : i ∉ (outRows c).view.set := (Finset.mem_sdiff.mp hi).2
  have h2 : i ∉ (outRows (peer c)).view.set := (Finset.mem_sdiff.mp (Finset.mem_sdiff.mp hi).1).2
  unfold outVal landed
  rw [View.write_of_not_mem _ _ _ (by rw [View.setOn_univ]; exact h1), View.write_of_not_mem _ _ _ (by rw [View.setOn_univ]; exact h2)]

end Cert.KernelIdeal.A2A

end
-- ==== Proof.KernelIdeal.Body.lean ====
/-
  The body of the exchange on one device, stepped from the device's invariant.

  The device hands its partner the rows of its own result array that the partner fills (the entry signal), waits for
  the same from its partner, and then transfers the half of its columns its partner needs into those rows of the
  partner's array. Meanwhile it copies the half it keeps through the scratch buffer into its own rows. It then waits
  for its transfer's source to be read back and for its partner's transfer to have landed, and exchanges one last
  signal. What it holds at the end is its argument array whole and unchanged, and its result array in three pieces
  — its own rows, its partner's rows, and nothing else — each of which holds the final contents there, so they join
  to the whole result array at those contents.
-/
import proofs.«900635_g7700000000000636_dist_a2a_v7x_xyz2x2x4_x_m4096_n1024_f32_1_alg».proof.Proof.KernelIdeal.Data
import proofs.«900635_g7700000000000636_dist_a2a_v7x_xyz2x2x4_x_m4096_n1024_f32_1_alg».proof.Proof.KernelIdeal.Geom
import proofs.«900635_g7700000000000636_dist_a2a_v7x_xyz2x2x4_x_m4096_n1024_f32_1_alg».proof.Proof.Gen.KernelIdeal.Skeleton
import proofs.«900635_g7700000000000636_dist_a2a_v7x_xyz2x2x4_x_m4096_n1024_f32_1_alg».proof.Proof.Gen.KernelIdeal.Points
import Idealize.ShloMosaic.Lib.Tactic

noncomputable section

namespace Cert.KernelIdeal.A2A

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_rounds] duties_bar duties_send duties_recv duties_exit amount_bar amount_exit
  payload_exit expect_bar expect_exit
attribute [local sl_canon] dev1_eq dev2_eq dev3_eq

/-! ## Cutting and joining a buffer by regions -/

omit [FloatOps F] in
/-- A region held splits along a subregion. -/
theorem pointsTo_split (ℓ : Loc nD τ sig) (I S : Finset (Idx ℓ)) (h : I ⊆ S) (q : PosShare TreeShare) (f : Buf (Elt F) ℓ) :
    (ℓ ↦[S]{q} f : sProp 𝕄) ⊣⊢ iprop((ℓ ↦[I]{q} f) ∗ (ℓ ↦[S \ I]{q} f)) :=
  BI.Region.is_split_subset h

omit [FloatOps F] in
/-- Only the values on the region matter. -/
theorem pointsTo_congr (ℓ : Loc nD τ sig) (I : Finset (Idx ℓ)) (q : PosShare TreeShare) (f g : Buf (Elt F) ℓ)
    (h : ∀ i ∈ I, f i = g i) : (ℓ ↦[I]{q} f : sProp 𝕄) = (ℓ ↦[I]{q} g) :=
  BI.Region.is_congr h

/-! ## The schedule's payloads, spelt as the buffers they are -/

omit [FloatOps F] in
theorem pay_bar_own (c : Dev nD) (u : Unit) : (Rd (F := F) m).payload (barCell c) 0 u
    = ((outRows c).view.loc (peer c : Thread nD τ) ↦[(outRows c).view.set]{fullShare} o0 m (peer c)) := by
  rw [payload_bar]; rfl
omit [FloatOps F] in
/-- What device `c`'s entry signal hands its partner: `c`'s own result rows that the partner fills. -/
theorem pay_bar_peer (c : Dev nD) (u : Unit) : (Rd (F := F) m).payload (barCell (peer c)) 0 u
    = ((outRows (peer c)).view.loc (c : Thread nD τ) ↦[(outRows (peer c)).view.set]{fullShare} o0 m c) := by
  rw [payload_bar]; unfold barPay; rw [peer_peer]
omit [FloatOps F] in
theorem pay_send (c : Dev nD) (u : Unit) : (Rd (F := F) m).payload (sendCell c) 0 u
    = ((argFar c).view.loc (c : Thread nD τ) ↦[(argFar c).view.set]{fullShare} xA m c) := by
  rw [payload_send]; rfl
omit [FloatOps F] in
theorem pay_recv_own (c : Dev nD) (u : Unit) : (Rd (F := F) m).payload (recvCell c) 0 u
    = ((outRows (peer c)).view.loc (c : Thread nD τ) ↦[(outRows (peer c)).view.set]{fullShare} landed m c) := by
  rw [payload_recv]; rfl
omit [FloatOps F] in
/-- What device `c`'s transfer hands its partner: the partner's rows of `c`, rewritten with the half `c` sends. -/
theorem pay_recv_peer (c : Dev nD) (u : Unit) : (Rd (F := F) m).payload (recvCell (peer c)) 0 u
    = ((outRows c).view.loc (peer c : Thread nD τ) ↦[(outRows c).view.set]{fullShare}
        (outRows c).view.write (Elt F) (o0 m (peer c)) ((argFar c).view.read (Elt F) (xA m c)) Finset.univ) := by
  rw [payload_recv]; unfold recvPay landed sent; rw [peer_peer]

omit [FloatOps F] in
/-- A whole buffer, spelt through its memref's view. -/
theorem whole_view (c : Dev nD) (b : Ref sig .tc) (f : Buf (Elt F) ((c : Thread nD τ).loc b)) :
    ((((c : Thread nD τ).loc b) ↦{fullShare} f) : sProp 𝕄)
      = ((Memref.whole b).view.loc (c : Thread nD τ) ↦[(Memref.whole b).view.set]{fullShare} f) := by
  rw [View.set_whole]

/-! ## The schedule's amounts, spelt as the views' credit -/

omit [FloatOps F] in
theorem amt_send (c : Dev nD) (u : Unit) : (Rd (F := F) m).amount (sendCell c) 0 u = (outRows c).view.amount (SemLoc.dma recvS.sem) :=
  (amount_send m c u).trans (N_out c).symm
omit [FloatOps F] in
theorem amt_recv_peer (c : Dev nD) (u : Unit) : (Rd (F := F) m).amount (recvCell (peer c)) 0 u = (outRows c).view.amount (SemLoc.dma recvS.sem) :=
  (amount_recv m (peer c) u).trans (N_out c).symm
omit [FloatOps F] in
theorem exp_send (c : Dev nD) : (Rd (F := F) m).expect (sendCell c) 0 = (argFar c).view.dmaCredit :=
  (expect_send m c).trans (N_far c).symm
omit [FloatOps F] in
theorem exp_recv (c : Dev nD) : (Rd (F := F) m).expect (recvCell c) 0 = (outRows c).view.dmaCredit :=
  (expect_recv m c).trans (N_out c).symm

/-! ## The device's own rows, as the two local copies leave them -/

/-- The own rows hold the half the device kept: the scratch buffer read back, which holds the near columns read. -/
theorem own_rows_eq (c : Dev nD) (fscr : Buf (Elt F) ((c : Thread nD τ).loc cc0_scratch0))
    (i : Idx ((c : Thread nD τ).loc main_v1)) (hi : i ∈ (outRows c).view.set) :
    ((outRows c).view.writes (Elt F) (o0 m c)
        [⟨Rect.whole S4096x1024, ReadAs.same.apply (View.read (Elt F) (scrM : Memref sig .tc .vmem S4096x1024 .f32).view
            ((scrM : Memref sig .tc .vmem S4096x1024 .f32).view.writes (Elt F) fscr
              [⟨Rect.whole (cc0_scratch0 : Ref sig .tc).ty.shape, ReadAs.same.apply (View.read (Elt F) (argNear c).view (xA m c))⟩]))⟩]) i
      = outVal m c i := by
  obtain ⟨y, rfl⟩ := (mem_set_iff (outRows c).view i).mp hi
  rw [outVal_own]
  have h1 := writes_whole_apply (outRows c).view (o0 m c)
    (ReadAs.same.apply (View.read (Elt F) (scrM : Memref sig .tc .vmem S4096x1024 .f32).view
            ((scrM : Memref sig .tc .vmem S4096x1024 .f32).view.writes (Elt F) fscr
              [⟨Rect.whole (cc0_scratch0 : Ref sig .tc).ty.shape, ReadAs.same.apply (View.read (Elt F) (argNear c).view (xA m c))⟩]))) y
  rw [Rect.emb_whole_apply, View.read_apply, cast_eq] at h1
  rw [h1, ReadAs.apply_same]
  have h2 := writes_whole_apply (scrM : Memref sig .tc .vmem S4096x1024 .f32).view fscr
    (ReadAs.same.apply (View.read (Elt F) (argNear c).view (xA m c))) y
  rw [Rect.emb_whole_apply] at h2
  refine h2.trans ?_
  rw [ReadAs.apply_same]
  rfl

attribute [local sl_rounds] pay_bar_own pay_send pay_recv_own amt_send exp_send exp_recv
attribute [local sl_rounds high] pay_bar_peer pay_recv_peer amt_recv_peer

/-! ## The body -/

set_option maxHeartbeats 1600000 in
/-- The body, stepped from the device's invariant to the invariant after the point. -/
theorem sound_body (K : Dev nD × Fin 4 → ℕ) (c : Dev nD) (W : Waits sig Unit)
    (fscr : Buf (Elt F) ((c : Thread nD τ).loc cc0_scratch0)) (Kt : PUnit → sProp 𝕄) :
    iprop((ghost m K c
        ∗ (cred (tallyAt (barCell c) () 1) ∗ cred (tallyAt (recvCell c) () N) ∗ cred (tallyAt (exitCell c) () 1))
        ∗ levAts L lv ∗ localSems c ∗ arrays m c (o0 m c)
        ∗ (((c : Thread nD τ).loc cc0_scratch0) ↦{fullShare} fscr)
        ∗ owes (c : Thread nD τ) (O₀ c) W)
        ∗ (iprop(Φ₁ m c ∗ ∃ W' : Waits sig Unit, owes (c : Thread nD τ) 0 W') -∗ Kt ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3 cc0_scratch4 cc0_scoped0) Kt := by
  unfold ghost invs payToks localSems arrays
  iintro ⟨⟨⟨⟨#HIbar, #HIsnd, #HIrcv, #HIext, #HIbarP, #HIrcvP, #HIextP⟩, ⟨HatB, HatS, HatV, HatE⟩, ⟨#HrBP, #HrVP, #HrEP, #HrS⟩, ⟨HtBP, HtVP, HtEP, HtS⟩⟩,
    ⟨HcB, HcV, HcE⟩, #Hlev, ⟨HsU, HsD⟩, ⟨Harg, Hout⟩, Hscr, HO⟩, Hk⟩
  unfold O₀ O₁ O₂
  sl_unfold [cc0_body, k0_part1]
  -- the result array: the partner's rows, the device's own rows, the rest
  ihave Hs := (pointsTo_split ((c : Thread nD τ).loc main_v1) (outRows (peer c)).view.set Finset.univ (Finset.subset_univ _) fullShare (o0 m c)).1 $$ Hout
  icases Hs with ⟨Hrem, Hrest⟩
  ihave Hs := (pointsTo_split ((c : Thread nD τ).loc main_v1) (outRows c).view.set (Finset.univ \ (outRows (peer c)).view.set)
    (Finset.subset_sdiff.mpr ⟨Finset.subset_univ _, (rows_disjoint c).symm⟩) fullShare (o0 m c)).1 $$ Hrest
  icases Hs with ⟨Hown, HrestO⟩
  ihave Hrem' := (Entails.of_eq (show ((((c : Thread nD τ).loc main_v1) ↦[(outRows (peer c)).view.set]{fullShare} o0 m c : sProp 𝕄)) = ((outRows (peer c)).view.loc (c : Thread nD τ) ↦[(outRows (peer c)).view.set]{fullShare} o0 m c) from rfl)) $$ Hrem
  ihave Hown' := (Entails.of_eq (show ((((c : Thread nD τ).loc main_v1) ↦[(outRows c).view.set]{fullShare} o0 m c : sProp 𝕄)) = ((outRows c).view.loc (c : Thread nD τ) ↦[(outRows c).view.set]{fullShare} o0 m c) from rfl)) $$ Hown
  -- the argument array: the far columns, the near columns, the rest
  ihave Ha := (pointsTo_split ((c : Thread nD τ).loc main_arg0) (argFar c).view.set Finset.univ (Finset.subset_univ _) fullShare (xA m c)).1 $$ Harg
  icases Ha with ⟨Hfar, HrestA⟩
  ihave Ha := (pointsTo_split ((c : Thread nD τ).loc main_arg0) (argNear c).view.set (Finset.univ \ (argFar c).view.set)
    (Finset.subset_sdiff.mpr ⟨Finset.subset_univ _, cols_disjoint c⟩) fullShare (xA m c)).1 $$ HrestA
  icases Ha with ⟨Hnear, HrestA⟩
  ihave Hfar' := (Entails.of_eq (show ((((c : Thread nD τ).loc main_arg0) ↦[(argFar c).view.set]{fullShare} xA m c : sProp 𝕄)) = ((argFar c).view.loc (c : Thread nD τ) ↦[(argFar c).view.set]{fullShare} xA m c) from rfl)) $$ Hfar
  ihave Hnear' := (Entails.of_eq (show ((((c : Thread nD τ).loc main_arg0) ↦[(argNear c).view.set]{fullShare} xA m c : sProp 𝕄)) = ((argNear c).view.loc (c : Thread nD τ) ↦[(argNear c).view.set]{fullShare} xA m c) from rfl)) $$ Hnear
  ihave Hscr' := (Entails.of_eq (whole_view c cc0_scratch0 fscr)) $$ Hscr
  -- what is owed and the receive credit, in the views' own terms
  ihave HO := (Entails.of_eq (show (owes (c : Thread nD τ) (tallyAt (exitCell (peer c)) () 1 + tallyAt (recvCell (peer c)) () N + tallyAt (barCell (peer c)) () 1) W : sProp 𝕄)
      = owes (c : Thread nD τ) (tallyAt (exitCell (peer c)) () 1 + tallyAt (recvCell (peer c)) () ((outRows c).view.amount (SemLoc.dma recvS.sem)) + tallyAt (barCell (peer c)) () 1) W
      from by rw [show (outRows c).view.amount (SemLoc.dma recvS.sem) = N from N_out c])) $$ HO
  ihave HcV := (Entails.of_eq (show (cred (tallyAt (recvCell c) () N) : sProp 𝕄) = cred (tallyAt (recvCell c) () (outRows c).view.dmaCredit)
      from by rw [N_out c])) $$ HcV
  have hmwB : (levAts L lv : sProp 𝕄) ⊢ MayWait (c : Thread nD τ) (.reg barS) ()
      (tallyAt (exitCell (peer c)) () 1 + tallyAt (recvCell (peer c)) () ((outRows c).view.amount (SemLoc.dma recvS.sem))) := by
    rw [show (outRows c).view.amount (SemLoc.dma recvS.sem) = N from N_out c]; exact mayWait_bar c
  have hmwS : (levAts L lv : sProp 𝕄) ⊢ MayWait (c : Thread nD τ) (.dma sendS.sem) () (tallyAt (exitCell (peer c)) () 1) :=
    mayWait_low c _ (by rw [lv_send]; decide)
  have hmwV : (levAts L lv : sProp 𝕄) ⊢ MayWait (c : Thread nD τ) (.dma recvS.sem) () (tallyAt (exitCell (peer c)) () 1) :=
    mayWait_low c _ (by rw [lv_recv])
  have hlvU : lv ((c : Thread nD τ), SemLoc.dma upS.sem) () ≤ 2 := by
    dsimp only [lv]; rw [if_neg (fun h => by cases h), if_neg (by decide), if_neg (fun h => by cases h)]; decide
  have hlvD : lv ((c : Thread nD τ), SemLoc.dma downS.sem) () ≤ 2 := by
    dsimp only [lv]; rw [if_neg (fun h => by cases h), if_neg (by decide), if_neg (fun h => by cases h)]; decide
  have hmwU : (levAts L lv : sProp 𝕄) ⊢ MayWait (c : Thread nD τ) (.dma upS.sem) () (tallyAt (exitCell (peer c)) () 1) :=
    mayWait_low c _ hlvU
  have hmwD : (levAts L lv : sProp 𝕄) ⊢ MayWait (c : Thread nD τ) (.dma downS.sem) () (tallyAt (exitCell (peer c)) () 1) :=
    mayWait_low c _ hlvD
  have hdA : Disjoint (argNear c).view.set (argFar c).view.set := cols_disjoint c
  have hdA' : Disjoint (argFar c).view.set (argNear c).view.set := (cols_disjoint c).symm
  have hdO : Disjoint (outRows (peer c)).view.set (outRows c).view.set := rows_disjoint c
  have hdO' : Disjoint (outRows c).view.set (outRows (peer c)).view.set := (rows_disjoint c).symm
  sl_exec (disch := first | simp only [dev1_eq, dev2_eq, dev3_eq] | rfl | omega)
  sl_unfold_run_names
  -- the three own cells close: their counters at zero are the device's again
  imod (Rounds.cell_close ER (Rd m) (Set.mem_univ (K (c, 1))) (fun h => h) (R := 0 + 1) (duties_later m (sendCell c))) $$ [HatS] with HzS
  · isplitr; · iexact HIsnd
    iexact HatS
  imod (Rounds.cell_close ER (Rd m) (Set.mem_univ (K (c, 2))) (fun h => h) (R := 0 + 1) (duties_later m (recvCell c))) $$ [HatV] with HzV
  · isplitr; · iexact HIrcv
    iexact HatV
  imod (Rounds.cell_close ER (Rd m) (Set.mem_univ (K (c, 3))) (fun h => h) (R := 0 + 1) (duties_later m (exitCell c))) $$ [HatE] with HzE
  · isplitr; · iexact HIext
    iexact HatE
  rw [wp_ret]; imodintro
  -- the argument array whole again
  ihave Harg := (pointsTo_split ((c : Thread nD τ).loc main_arg0) (argFar c).view.set Finset.univ (Finset.subset_univ _) fullShare (xA m c)).2 $$ [HatS_pay1 HrestA]
  · isplitl [HatS_pay1]; · iexact HatS_pay1
    iexact HrestA
  -- the result array's three pieces at the final contents, then whole
  ihave Hown2 := (Entails.of_eq (pointsTo_congr ((c : Thread nD τ).loc main_v1) (outRows c).view.set fullShare _ (outVal m c) (own_rows_eq m c fscr))) $$ Hown'
  ihave Hrem2 := (Entails.of_eq (pointsTo_congr ((c : Thread nD τ).loc main_v1) (outRows (peer c)).view.set fullShare (landed m c) (outVal m c) (far_rows_eq m c))) $$ HatV_pay1
  ihave HrestO2 := (Entails.of_eq (pointsTo_congr ((c : Thread nD τ).loc main_v1) ((Finset.univ \ (outRows (peer c)).view.set) \ (outRows c).view.set) fullShare (o0 m c) (outVal m c) (rest_rows_eq m c))) $$ HrestO
  ihave Hmid := (pointsTo_split ((c : Thread nD τ).loc main_v1) (outRows c).view.set (Finset.univ \ (outRows (peer c)).view.set)
    (Finset.subset_sdiff.mpr ⟨Finset.subset_univ _, (rows_disjoint c).symm⟩) fullShare (outVal m c)).2 $$ [Hown2 HrestO2]
  · isplitl [Hown2]; · iexact Hown2
    iexact HrestO2
  ihave Hout := (pointsTo_split ((c : Thread nD τ).loc main_v1) (outRows (peer c)).view.set Finset.univ (Finset.subset_univ _) fullShare (outVal m c)).2 $$ [Hrem2 Hmid]
  · isplitl [Hrem2]; · iexact Hrem2
    iexact Hmid
  ihave Hscr := (Entails.of_eq (whole_view c cc0_scratch0 _).symm) $$ Hscr'
  iapply Hk
  unfold Φ₁ arrays ownZero localSems
  isplitr [HO]
  · isplitl [Harg Hout]
    · isplitl [Harg]; · iexact Harg
      iexact Hout
    isplitl [HsU HsD HzS HzV HzE]
    · isplitl [HsU HsD]
      · isplitl [HsU]; · iexact HsU
        iexact HsD
      isplitl [HzS]; · iexact HzS
      isplitl [HzV]; · iexact HzV
      iexact HzE
    iexists _; iexact Hscr
  · iexists _; iexact HO

/-! ## The body obligation -/

/-- The library's body obligation on device `c`: the one grid point, no window. -/
theorem body_obligation (m : (ℓ : Loc nD τ sig) → Buf (Elt F) ℓ) (c : Dev nD) :
    BodyObligation (dats (F := F) m 0 c) (defs₀ (F := F)) 𝒱₀ () Set.univ := fun t => by
  rw [fin_N0 t]
  simp only [Finset.univ_eq_empty, BI.bigSep_empty]
  show iprop(Φ₀ m c ∗ (dats (F := F) m 0 c).owesAt () t0_0.castSucc ∗ emp)
    ⊢ wp frame (wpE (defs₀ (F := F)) 𝒱₀ c none) Set.univ
        (cc0_body (Memref.whole main_arg0) (Memref.isWhole_whole _) (Memref.whole main_v1) (Memref.isWhole_whole _)
          (Memref.whole cc0_scratch0) (Memref.isWhole_whole _) cc0_scratch1 cc0_scratch2 cc0_scratch3 cc0_scratch4 cc0_scoped0)
        (fun _ => iprop(Φ₁ m c ∗ (dats (F := F) m 0 c).owesAt () t0_0.succ ∗ emp))
  unfold Φ₀ start Dat.owesAt Pipeline.owesWithin
  rw [show (dats (F := F) m 0 c).owed t0_0.castSucc = O₀ c from rfl, show (dats (F := F) m 0 c).owed t0_0.succ = 0 from rfl]
  iintro ⟨⟨⟨⟨%K, Hg⟩, Hcr, Hlev, Hls, Harr⟩, ⟨%fscr, Hscr⟩⟩, ⟨%W, %hW, HO⟩, -⟩
  iapply (sound_body m K c W fscr _)
  isplitl
  · isplitl [Hg]; · iexact Hg
    isplitl [Hcr]; · iexact Hcr
    isplitl [Hlev]; · iexact Hlev
    isplitl [Hls]; · iexact Hls
    isplitl [Harr]; · iexact Harr
    isplitl [Hscr]; · iexact Hscr
    iexact HO
  · iintro ⟨HΦ, ⟨%W', HO'⟩⟩
    isplitl [HΦ]; · iexact HΦ
    isplitl
    · iexists W'
      isplitr; · ipureintro; exact fun _ _ => Or.inl trivial
      iexact HO'
    · iempintro

/-- info: 'Cert.KernelIdeal.A2A.body_obligation' depends on axioms: [propext, Classical.choice, Quot.sound] -/
#guard_msgs in #print axioms body_obligation

end Cert.KernelIdeal.A2A

end
-- ==== Proof.Kernel.Vals.lean ====
/-
  The vocabulary of the exchange, shared by every module of this proof.

  Sixteen devices on a 2 × 2 × 4 mesh; the kernel pairs each device with the one at the other coordinate of the
  first axis, eight logical ids away: an involution without fixed point. Each device holds 4096 rows of 2048
  columns. It keeps the half of the columns its own first coordinate names and sends the other half to its
  partner; it ends with 8192 rows of 1024 columns, its own 4096 rows holding the half it kept and its partner's
  4096 rows holding the half the partner sent. The contents below are stated as what the copies write, through
  the views the kernel itself slices.
-/
import proofs.«900635_g7700000000000636_dist_a2a_v7x_xyz2x2x4_x_m4096_n1024_f32_1_alg».proof.Proof.Gen.Kernel
import Idealize.ShloMosaic.Lib.Pipeline.Launch
import Idealize.ShloMosaic.Lib.Pipeline.Kit

noncomputable section

namespace Cert.Kernel.A2A

open Cert.Kernel Cert.Kernel.Gen
open Idealize.ShloMosaic
open Idealize.ShloMosaic.TcCoe
open Idealize.SL.Sem

variable {F : FTy → Type} [FloatOps F]

/-! ## The partner -/

/-- The device at the other coordinate of the first mesh axis. -/
def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide

/-- The three device chains of the kernel all name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))
theorem dev3_eq (c : Dev nD) : (⟨k0_dev3 c, k0_dev3_lt c⟩ : Dev nD) = peer c :=
  Fin.ext ((k0_dev3_eq c).trans (by revert c; decide))

def swap : Dev nD ≃ Dev nD := ⟨peer, peer, peer_peer, peer_peer⟩

/-! ## The memrefs -/

abbrev argM : Memref sig .tc .hbm S4096x2048 .f32 := Memref.whole main_arg0
abbrev outM : Memref sig .tc .hbm S8192x1024 .f32 := Memref.whole main_v1
abbrev scrM : Memref sig .tc .vmem S4096x1024 .f32 := Memref.whole cc0_scratch0

/-- The 4096 result rows that belong to device `d`'s first coordinate: `d` fills them on its own result
    array, and on its partner's. -/
abbrev outRows (d : Dev nD) : Memref sig .tc .hbm S4096x1024 .f32 :=
  outM.slice (Rect.unit (s := S8192x1024) (k0_off1 d) S4096x1024.size (k0_off1_inb d)) (fun _ => rfl)
/-- The half of `d`'s columns that goes to its partner. -/
abbrev argFar (d : Dev nD) : Memref sig .tc .hbm S4096x1024 .f32 :=
  argM.slice (Rect.unit (s := S4096x2048) (k0_off2 d) S4096x1024.size (k0_off2_inb d)) (fun _ => rfl)
/-- The half of `d`'s columns that stays. -/
abbrev argNear (d : Dev nD) : Memref sig .tc .hbm S4096x1024 .f32 :=
  argM.slice (Rect.unit (s := S4096x2048) (k0_off3 d) S4096x1024.size (k0_off3_inb d)) (fun _ => rfl)

/-! ## The contents -/

variable (m : (ℓ : Loc nD τ sig) → Buf (Elt F) ℓ)

/-- Device `c`'s argument block, as launched. -/
def xA (c : Dev nD) : Buf (Elt F) ((c : Thread nD τ).loc main_arg0) := m ((c : Thread nD τ).loc main_arg0)
/-- Device `c`'s result array, as launched: arbitrary, and wholly overwritten. -/
def o0 (c : Dev nD) : Buf (Elt F) ((c : Thread nD τ).loc main_v1) := m ((c : Thread nD τ).loc main_v1)

/-- The half device `c` keeps: what the first local copy leaves in the scratch buffer. -/
def kept (c : Dev nD) : S4096x1024.Idx → Elt F .f32 := (argNear c).view.read (Elt F) (xA m c)
/-- The half device `c` sends. -/
def sent (c : Dev nD) : S4096x1024.Idx → Elt F .f32 := (argFar c).view.read (Elt F) (xA m c)

/-- Device `c`'s result array with its partner's rows landed. -/
def landed (c : Dev nD) : Buf (Elt F) ((c : Thread nD τ).loc main_v1) :=
  (outRows (peer c)).view.write (Elt F) (o0 m c) (sent m (peer c)) Finset.univ
/-- Device `c`'s result array at the end: the partner's rows landed, its own rows holding the half it kept. -/
def outVal (c : Dev nD) : Buf (Elt F) ((c : Thread nD τ).loc main_v1) :=
  (outRows c).view.write (Elt F) (landed m c) (kept m c) Finset.univ

end Cert.Kernel.A2A

end
-- ==== Proof.Kernel.Proto.lean ====
/-
  The protocol of the exchange under the rounds discipline.

  Four cells a device. The barrier cell: one unit, paid by the partner's entry signal, handing over the partner's
  result rows that this device will fill, at their launch contents. The send cell: the copy's amount, paid by the device's own transfer once
  its source is read, returning the source columns. The receive cell: the copy's amount, paid by the partner's
  transfer once it has landed, handing over this device's result rows holding what the partner sent. The exit
  cell: one unit, paid by the partner's exit signal, handing over nothing. Each cell has one round of one duty.

  A wait is allowed below everything the waiter still owes: the send cell lowest, then the barrier, the receive
  cell, the exit cell; a device owes its partner's receive cell until its transfer, and its partner's exit cell
  until the end, so every wait is below what is owed at it.
-/
import proofs.«900635_g7700000000000636_dist_a2a_v7x_xyz2x2x4_x_m4096_n1024_f32_1_alg».proof.Proof.Kernel.Vals
import proofs.«900635_g7700000000000636_dist_a2a_v7x_xyz2x2x4_x_m4096_n1024_f32_1_alg».proof.Proof.Gen.Kernel.Launch
import Idealize.ShloMosaic.Lib.Tactic
import Idealize.ShloMosaic.Lib.Transfers

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's own, and the local copies' counters -/

/-- The exchange's component: its own copy of the rounds algebra beside the counters the two local copies draw on. -/
abbrev UX : Type := UR sig nD τ × Counters
abbrev UU : Type := UR sig nD τ × UX

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := (Emb.inl : Emb (UR sig nD τ) UX).trans embR

omit [FloatOps F] in
instance ER_landsIn : (ER (F := F)).LandsIn (upEmb : UEmb _ (MT nD τ sig Unit (Elt F) ℕ UU ℕ)) := by
  unfold ER embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores and cells -/

/-- The runtime's barrier semaphore of collective id 0 (not scoped). -/
abbrev barS : Sem sig := (SemArray.scalar (sig.barrier 0 rfl) : Sems sig S_).sem
/-- The semaphore the body's scoped region allocates for the exit handshake. -/
abbrev exitS : Sems sig S_ := cc0_scoped0
abbrev upS : DmaSems sig S_ := cc0_scratch1
abbrev downS : DmaSems sig S_ := cc0_scratch2
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)
abbrev exitCell (c : Dev nD) : GSem nD τ sig := ((c : Thread nD τ), .reg exitS.sem)

/-- The kernel's own (scoped) semaphores, as the launch indexes them: the two local copies', send, receive, exit. -/
abbrev osem : Fin 5 → SemLoc sig := fun
  | 0 => .dma upS.sem | 1 => .dma downS.sem | 2 => .dma sendS.sem | 3 => .dma recvS.sem | 4 => .reg exitS.sem
/-- The exchange's four cells, as this proof indexes them: barrier, send, receive, exit. -/
abbrev csem : Fin 4 → SemLoc sig := fun
  | 0 => .reg barS | 1 => .dma sendS.sem | 2 => .dma recvS.sem | 3 => .reg exitS.sem
abbrev kcell (ck : Dev nD × Fin 4) : GSem nD τ sig := ((ck.1 : Thread nD τ), csem ck.2)

/-- What one copy of a 4096 × 1024 block credits, and what a wait naming such a block consumes. -/
def N : ℕ := (scrM : Memref sig .tc .vmem S4096x1024 .f32).view.dmaCredit
theorem N_pos : 0 < N := View.dmaCredit_pos _ (Shape.numel_pos fun a => by fin_cases a <;> decide)
/-- Every 4096 × 1024 view of the exchange credits that amount. -/
theorem N_out (d : Dev nD) : (outRows d).view.dmaCredit = N := rfl
theorem N_far (d : Dev nD) : (argFar d).view.dmaCredit = N := rfl
theorem N_near (d : Dev nD) : (argNear d).view.dmaCredit = N := rfl
theorem N_scr : (scrM : Memref sig .tc .vmem S4096x1024 .f32).view.dmaCredit = N := rfl
attribute [irreducible] N

/-! ## What the landings hand over -/

/-- The partner's result rows that device `c` fills, at their launch contents: what the partner's entry signal
    hands `c`. -/
def barPay (c : Dev nD) : sProp 𝕄 :=
  (outRows c).view.loc (peer c : Thread nD τ) ↦[(outRows c).view.set]{fullShare} o0 m (peer c)
/-- Device `c`'s source columns, back from its transfer. -/
def sendPay (c : Dev nD) : sProp 𝕄 :=
  (argFar c).view.loc (c : Thread nD τ) ↦[(argFar c).view.set]{fullShare} xA m c
/-- Device `c`'s result rows holding what its partner sent. -/
def recvPay (c : Dev nD) : sProp 𝕄 :=
  (outRows (peer c)).view.loc (c : Thread nD τ) ↦[(outRows (peer c)).view.set]{fullShare} landed m c

abbrev IsRing (g : GSem nD τ sig) : Prop :=
  g.1.2 = .tc ∧ (g.2 = .reg barS ∨ g.2 = .dma sendS.sem ∨ g.2 = .dma recvS.sem ∨ g.2 = .reg exitS.sem)

/-- One round, round 0, one duty a cell: a unit on the barrier and exit cells, the block's credit on the send and
    receive cells. -/
def Rd : Rounds.Schedule (GSem nD τ sig) Unit 𝕄 where
  duties g r := if r = 0 ∧ IsRing g then {()} else ∅
  unitless _ := False
  amount g _ _ := if g.2 = .reg barS ∨ g.2 = .reg exitS.sem then 1 else N
  payload g _ _ :=
    if g.2 = .reg barS then barPay m g.1.1
    else if g.2 = .dma sendS.sem then sendPay m g.1.1
    else if g.2 = .dma recvS.sem then recvPay m g.1.1
    else iprop(emp)
  amount_pos g _ _ _ := by
    by_cases h : g.2 = .reg barS ∨ g.2 = .reg exitS.sem
    · rw [if_pos h]; exact Nat.one_pos
    · rw [if_neg h]; exact N_pos

instance Rd_payload_storable (g : GSem nD τ sig) (r : ℕ) (d : Unit) :
    BI.Storable (upEmb : UEmb _ 𝕄) ((Rd (F := F) m).payload g r d) := by
  show BI.Storable upEmb (if g.2 = .reg barS then barPay m g.1.1 else if g.2 = .dma sendS.sem then sendPay m g.1.1
    else if g.2 = .dma recvS.sem then recvPay m g.1.1 else iprop(emp))
  unfold barPay sendPay recvPay
  (repeat' split) <;> infer_instance

/-- A round of one duty expects that duty's amount: stated over an abstract schedule and cell. -/
theorem expect_of_single {G D 𝕄' : Type} [DecidableEq G] [URA 𝕄'] (R : Rounds.Schedule G D 𝕄') (g : G) (r : ℕ) (d : D) (n : ℕ)
    (hd : R.duties g r = {d}) (ha : R.amount g r d = n) : R.expect g r = n := by
  unfold Schedule.expect Schedule.amountOf
  rw [hd, Finset.sum_singleton, ha]

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_exit : (SemLoc.dma sendS.sem : SemLoc sig) ≠ .reg exitS.sem := fun h => by cases h
theorem recv_ne_exit : (SemLoc.dma recvS.sem : SemLoc sig) ≠ .reg exitS.sem := fun h => by cases h
theorem exit_ne_bar : (SemLoc.reg exitS.sem : SemLoc sig) ≠ .reg barS := by decide
theorem bar_ne_exit : (SemLoc.reg barS : SemLoc sig) ≠ .reg exitS.sem := by decide
theorem send_ne_recv : (SemLoc.dma sendS.sem : SemLoc sig) ≠ .dma recvS.sem := by decide
theorem recv_ne_send : (SemLoc.dma recvS.sem : SemLoc sig) ≠ .dma sendS.sem := by decide
theorem exit_ne_send : (SemLoc.reg exitS.sem : SemLoc sig) ≠ .dma sendS.sem := fun h => by cases h
theorem exit_ne_recv : (SemLoc.reg exitS.sem : SemLoc sig) ≠ .dma recvS.sem := fun h => by cases h

omit [FloatOps F] in
theorem duties_bar : (Rd (F := F) m).duties (barCell c) 0 = {()} := by dsimp only [Rd]; exact if_pos ⟨rfl, rfl, .inl rfl⟩
omit [FloatOps F] in
theorem duties_send : (Rd (F := F) m).duties (sendCell c) 0 = {()} := by dsimp only [Rd]; exact if_pos ⟨rfl, rfl, .inr (.inl rfl)⟩
omit [FloatOps F] in
theorem duties_recv : (Rd (F := F) m).duties (recvCell c) 0 = {()} := by dsimp only [Rd]; exact if_pos ⟨rfl, rfl, .inr (.inr (.inl rfl))⟩
omit [FloatOps F] in
theorem duties_exit : (Rd (F := F) m).duties (exitCell c) 0 = {()} := by dsimp only [Rd]; exact if_pos ⟨rfl, rfl, .inr (.inr (.inr rfl))⟩
omit [FloatOps F] in
theorem duties_later (g : GSem nD τ sig) : ∀ r, 1 ≤ r → (Rd (F := F) m).duties g r = ∅ :=
  fun r hr => by dsimp only [Rd]; rw [if_neg fun h => by omega]

omit [FloatOps F] in
theorem amount_bar (u : Unit) : (Rd (F := F) m).amount (barCell c) 0 u = 1 := by dsimp only [Rd]; exact if_pos (.inl rfl)
omit [FloatOps F] in
theorem amount_exit (u : Unit) : (Rd (F := F) m).amount (exitCell c) 0 u = 1 := by dsimp only [Rd]; exact if_pos (.inr rfl)
omit [FloatOps F] in
theorem amount_send (u : Unit) : (Rd (F := F) m).amount (sendCell c) 0 u = N := by
  dsimp only [Rd]; exact if_neg (fun h => h.elim send_ne_bar send_ne_exit)
omit [FloatOps F] in
theorem amount_recv (u : Unit) : (Rd (F := F) m).amount (recvCell c) 0 u = N := by
  dsimp only [Rd]; exact if_neg (fun h => h.elim recv_ne_bar recv_ne_exit)

omit [FloatOps F] in
theorem expect_bar : (Rd (F := F) m).expect (barCell c) 0 = 1 := expect_of_single _ _ _ () _ (duties_bar m c) (amount_bar m c ())
omit [FloatOps F] in
theorem expect_exit : (Rd (F := F) m).expect (exitCell c) 0 = 1 := expect_of_single _ _ _ () _ (duties_exit m c) (amount_exit m c ())
omit [FloatOps F] in
theorem expect_send : (Rd (F := F) m).expect (sendCell c) 0 = N := expect_of_single _ _ _ () _ (duties_send m c) (amount_send m c ())
omit [FloatOps F] in
theorem expect_recv : (Rd (F := F) m).expect (recvCell c) 0 = N := expect_of_single _ _ _ () _ (duties_recv m c) (amount_recv m c ())

omit [FloatOps F] in
theorem payload_bar (u : Unit) : (Rd (F := F) m).payload (barCell c) 0 u = barPay m c := by dsimp only [Rd]; exact if_pos rfl
omit [FloatOps F] in
theorem payload_send (u : Unit) : (Rd (F := F) m).payload (sendCell c) 0 u = sendPay m c := by
  dsimp only [Rd]; rw [if_neg send_ne_bar]; exact if_pos rfl
omit [FloatOps F] in
theorem payload_recv (u : Unit) : (Rd (F := F) m).payload (recvCell c) 0 u = recvPay m c := by
  dsimp only [Rd]; rw [if_neg recv_ne_bar, if_neg recv_ne_send]; exact if_pos rfl
omit [FloatOps F] in
theorem payload_exit (u : Unit) : (Rd (F := F) m).payload (exitCell c) 0 u = iprop(emp) := by
  dsimp only [Rd]; rw [if_neg exit_ne_bar, if_neg exit_ne_send, if_neg exit_ne_recv]

omit [FloatOps F] in
theorem rest_bar : bigSep ((Rd (F := F) m).duties (barCell c) 0 \ ∅) (fun u => (Rd (F := F) m).payload (barCell c) 0 u) = barPay m c := by
  rw [Finset.sdiff_empty, duties_bar, bigSep_singleton, payload_bar]
omit [FloatOps F] in
theorem rest_send : bigSep ((Rd (F := F) m).duties (sendCell c) 0 \ ∅) (fun u => (Rd (F := F) m).payload (sendCell c) 0 u) = sendPay m c := by
  rw [Finset.sdiff_empty, duties_send, bigSep_singleton, payload_send]
omit [FloatOps F] in
theorem rest_recv : bigSep ((Rd (F := F) m).duties (recvCell c) 0 \ ∅) (fun u => (Rd (F := F) m).payload (recvCell c) 0 u) = recvPay m c := by
  rw [Finset.sdiff_empty, duties_recv, bigSep_singleton, payload_recv]
omit [FloatOps F] in
theorem rest_exit : bigSep ((Rd (F := F) m).duties (exitCell c) 0 \ ∅) (fun u => (Rd (F := F) m).payload (exitCell c) 0 u) = iprop(emp) := by
  rw [Finset.sdiff_empty, duties_exit, bigSep_singleton, payload_exit]

end Sched

/-! ## What each device owes at launch; the levels -/

/-- Device `c` owes its partner's exit cell a unit (its last signal), its partner's receive cell the block's
    credit (its transfer), and its partner's barrier cell a unit (its first signal). -/
def O₂ (c : Dev nD) : CellTallies nD τ sig Unit := tallyAt (exitCell (peer c)) () 1
def O₁ (c : Dev nD) : CellTallies nD τ sig Unit := O₂ c + tallyAt (recvCell (peer c)) () N
def O₀ (c : Dev nD) : CellTallies nD τ sig Unit := O₁ c + tallyAt (barCell (peer c)) () 1

def L (g : GSem nD τ sig) : Finset Unit := if g.1.2 = .tc then {()} else ∅
/-- send cells (and the local copies' semaphores) at 0, barrier cells at 1, receive cells at 2, exit cells at 3. -/
def lv (g : GSem nD τ sig) (_ : Unit) : ℕ :=
  if g.2 = .reg barS then 1 else if g.2 = .dma recvS.sem then 2 else if g.2 = .reg exitS.sem then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv (c : Dev nD) (u : Unit) : lv (recvCell c) u = 2 := by dsimp only [lv]; rw [if_neg recv_ne_bar, if_pos rfl]
theorem lv_exit (c : Dev nD) (u : Unit) : lv (exitCell c) u = 3 := by
  dsimp only [lv]; rw [if_neg exit_ne_bar, if_neg exit_ne_recv, if_pos rfl]
theorem lv_send (c : Dev nD) (u : Unit) : lv (sendCell c) u = 0 := by
  dsimp only [lv]; rw [if_neg send_ne_bar, if_neg send_ne_recv, if_neg send_ne_exit]

theorem O₂_pos {c : Dev nD} {g : GSem nD τ sig} {u : Unit} (h : 0 < O₂ c g u) : g = exitCell (peer c) := by
  unfold O₂ at h
  rw [tallyAt_apply] at h
  by_contra hn
  rw [if_neg (fun h' => hn h'.1)] at h
  exact Nat.lt_irrefl 0 h

theorem O₁_pos {c : Dev nD} {g : GSem nD τ sig} {u : Unit} (h : 0 < O₁ c g u) :
    g = exitCell (peer c) ∨ g = recvCell (peer c) := by
  unfold O₁ O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- The barrier wait, owing the partner's receive and exit cells: both above the barrier. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> (rw [L_tc]; exact Finset.mem_singleton_self _))
    (fun p hp => by rw [Finset.mem_singleton.mp hp]; exact le_of_eq (lv_bar c ()))
    (fun g u hg => by
      rcases O₁_pos hg with rfl | rfl
      · rw [lv_exit]; decide
      · rw [lv_recv]; decide)

omit [FloatOps F] in
/-- Any wait at level at most 2, owing only the partner's exit cell. -/
theorem mayWait_low (c : Dev nD) (sm : SemLoc sig) (hsm : lv ((c : Thread nD τ), sm) () ≤ 2) :
    (levAts L lv : sProp 𝕄) ⊢ MayWait (c : Thread nD τ) sm () (O₂ c) :=
  MayOwe.of_cut (L := L) (lev := lv) 2 (fun p hp => by rw [Finset.mem_singleton.mp hp, L_tc]; exact Finset.mem_singleton_self _)
    (fun g u hg => by rw [O₂_pos hg, L_tc]; exact Finset.mem_singleton_self _)
    (fun p hp => by rw [Finset.mem_singleton.mp hp]; exact hsm)
    (fun g u hg => by rw [O₂_pos hg, lv_exit]; decide)

end Cert.Kernel.A2A

end
-- ==== Proof.Kernel.Data.lean ====
/-
  What a device's body starts from and ends with: the interface between the body's proof and the launch.

  Before the one grid point a device holds the invariants of its own four cells and of the three cells of its
  partner it pays, its positions at round 0, the tokens of the four duties it pays (the partner's barrier, receive
  and exit duties and its own send duty), the credit its own waits consume, its two local-copy semaphores at zero,
  and its argument and result arrays whole. After it: the argument array unchanged, the result array holding the
  half it kept beside the half its partner sent, and its five own semaphores at zero again.
-/
import proofs.«900635_g7700000000000636_dist_a2a_v7x_xyz2x2x4_x_m4096_n1024_f32_1_alg».proof.Proof.Kernel.Proto

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The cells' invariants device `c`'s body opens, under the names `K` the launch allocated them at: its own four,
    and its partner's barrier, receive and exit cells. -/
def invs (K : Dev nD × Fin 4 → ℕ) (c : Dev nD) : sProp 𝕄 :=
  iprop(cellInv ER (Rd m) (K (c, 0)) (barCell c) ∗ cellInv ER (Rd m) (K (c, 1)) (sendCell c)
    ∗ cellInv ER (Rd m) (K (c, 2)) (recvCell c) ∗ cellInv ER (Rd m) (K (c, 3)) (exitCell c)
    ∗ cellInv ER (Rd m) (K (peer c, 0)) (barCell (peer c)) ∗ cellInv ER (Rd m) (K (peer c, 2)) (recvCell (peer c))
    ∗ cellInv ER (Rd m) (K (peer c, 3)) (exitCell (peer c)))

instance invs_persistent (K : Dev nD × Fin 4 → ℕ) (c : Dev nD) : BI.Persistent (invs m K c) := by unfold invs; infer_instance

/-- The tokens of the duties device `c` pays. -/
def payToks (c : Dev nD) : sProp 𝕄 :=
  iprop(dutyTok ER (barCell (peer c)) 0 () ∗ dutyTok ER (recvCell (peer c)) 0 () ∗ dutyTok ER (exitCell (peer c)) 0 ()
    ∗ dutyTok ER (sendCell c) 0 ())

/-- The exchange's ghost state device `c` starts from. -/
def ghost (K : Dev nD × Fin 4 → ℕ) (c : Dev nD) : sProp 𝕄 :=
  iprop(invs m K c
    ∗ (atPos ER (barCell c) 0 ∅ 0 ∗ atPos ER (sendCell c) 0 ∅ 0 ∗ atPos ER (recvCell c) 0 ∅ 0 ∗ atPos ER (exitCell c) 0 ∅ 0)
    ∗ (reached ER (barCell (peer c)) 0 ∗ reached ER (recvCell (peer c)) 0 ∗ reached ER (exitCell (peer c)) 0 ∗ reached ER (sendCell c) 0)
    ∗ payToks c)

/-- The two local copies' semaphores, at zero. -/
def localSems (c : Dev nD) : sProp 𝕄 :=
  iprop(semVal ((c : Thread nD τ), .dma upS.sem) 0 ∗ semVal ((c : Thread nD τ), .dma downS.sem) 0)

/-- The device's two arrays, whole. -/
def arrays (c : Dev nD) (o : Buf (Elt F) ((c : Thread nD τ).loc main_v1)) : sProp 𝕄 :=
  iprop((((c : Thread nD τ).loc main_arg0) ↦{fullShare} xA m c) ∗ (((c : Thread nD τ).loc main_v1) ↦{fullShare} o))

/-- What device `c`'s body starts from, the scratch buffer apart. -/
def start (c : Dev nD) : sProp 𝕄 :=
  iprop((∃ K, ghost m K c)
    ∗ (cred (tallyAt (barCell c) () 1) ∗ cred (tallyAt (recvCell c) () N) ∗ cred (tallyAt (exitCell c) () 1))
    ∗ levAts L lv ∗ localSems c ∗ arrays m c (o0 m c))

def Φ₀ (c : Dev nD) : sProp 𝕄 :=
  iprop(start m c ∗ ∃ f : Buf (Elt F) ((c : Thread nD τ).loc cc0_scratch0), ((c : Thread nD τ).loc cc0_scratch0) ↦{fullShare} f)

/-- The five own semaphores, at zero. -/
def ownZero (c : Dev nD) : sProp 𝕄 :=
  iprop(localSems c ∗ semVal (sendCell c) 0 ∗ semVal (recvCell c) 0 ∗ semVal (exitCell c) 0)

def Φ₁ (c : Dev nD) : sProp 𝕄 :=
  iprop(arrays m c (outVal m c) ∗ ownZero c
    ∗ ∃ f : Buf (Elt F) ((c : Thread nD τ).loc cc0_scratch0), ((c : Thread nD τ).loc cc0_scratch0) ↦{fullShare} f)

/-- The pipeline's proof data: no window; the invariant before and after the one point; what the device owes. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.A2A

end
-- ==== Proof.Kernel.Launch.lean ====
/-
  The launch of the exchange.

  The rounds library's launch element pays for the round state, the position, the reached mark and the one duty
  token of each of the four cells of every device. The global step at launch puts each device's barrier, send,
  receive and exit semaphores, all at zero, under their cells' invariants and leaves the two local-copy semaphores
  as they are; the duty tokens of the barrier, receive and exit cells go to the partner, which pays those duties,
  and the send cell's token stays with its device, which pays it. What every device owes at launch — a unit to its
  partner's barrier cell, the block's credit to its partner's receive cell, a unit to its partner's exit cell —
  comes back to it as the credit its own three waits consume. From each device's body, proved elsewhere, the launch
  theorem then gives the run: it terminates, the result array of each device ends holding the half it kept beside
  the half its partner sent, and its argument array is unchanged.
-/
import proofs.«900635_g7700000000000636_dist_a2a_v7x_xyz2x2x4_x_m4096_n1024_f32_1_alg».proof.Proof.Kernel.Data
import proofs.«900635_g7700000000000636_dist_a2a_v7x_xyz2x2x4_x_m4096_n1024_f32_1_alg».proof.Proof.Gen.Kernel.Frame
import Idealize.ShloMosaic.Lib.Pipeline.Launch
import Idealize.ShloMosaic.Lib.Pipeline.Kit
import Idealize.ShloMosaic.Lib.Tactic

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts of the kernel's own semaphores -/

theorem ownSemFacts : Pipeline.OwnSemFacts cfg0.spec osem := by decide

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-! ## The launch element -/

def ringCells : Finset (GSem nD τ sig) := Finset.univ.map ⟨kcell, kcell_injective⟩
def ringToks : Finset (GSem nD τ sig × ℕ × Unit) :=
  Finset.univ.map ⟨fun ck : Dev nD × Fin 4 => (kcell ck, 0, ()), fun _ _ h => kcell_injective (congrArg Prod.fst h)⟩

/-- The launch element: the pipeline library's cells, the exchange's own cells, and nothing for the local copies'
    counters, which are allocated as they are needed. -/
def u₀ : UU := (initOf (Pipeline.cells cfgs cellOf_inj) (Pipeline.launchToks cfgs cellOf_inj), (initOf ringCells ringToks, 1))

/-- The duty tokens of device `c`'s own cells. -/
def toks (c : Dev nD) : sProp 𝕄 :=
  iprop(dutyTok ER (barCell c) 0 () ∗ dutyTok ER (sendCell c) 0 () ∗ dutyTok ER (recvCell c) 0 () ∗ dutyTok ER (exitCell c) 0 ())

/-- What the launch element deals device `c`. -/
def G (c : Dev nD) : sProp 𝕄 :=
  iprop((bigSep Finset.univ fun k : Fin 4 => roundState ER (Rd m) (kcell (c, k)) 0)
    ∗ (bigSep Finset.univ fun k : Fin 4 => iprop(atPos ER (kcell (c, k)) 0 ∅ 0 ∗ reached ER (kcell (c, k)) 0)) ∗ toks c)

/-- What the global step makes of it: the exchange's ghost state, and the two local-copy semaphores passed through. -/
def G' (c : Dev nD) : sProp 𝕄 := iprop((∃ K, ghost m K c) ∗ localSems c)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 4 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin4]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: the four cells' invariants allocated, the tokens dealt -/

omit [FloatOps F] in
/-- The kernel's own five semaphores, one by one; -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma upS.sem) 0 ∗ semVal ((c : Thread nD τ), .dma downS.sem) 0
        ∗ semVal (sendCell c) 0 ∗ semVal (recvCell c) 0 ∗ semVal (exitCell c) 0) := by
  rw [Pipeline.ownSems0_eq_of_list c osem [0, 1, 2, 3, 4] (by decide) (by decide)]; rfl
omit [FloatOps F] in
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 4 => semVal (kcell (c, k)) 0 : sProp 𝕄) ∗ localSems c) := by
  rw [ownSems0_eq, unscopedSems0_eq, bigSep_fin4]
  unfold localSems
  iintro ⟨⟨HU, HD, HS, HV, HE⟩, HB⟩
  isplitr [HU HD]
  · isplitl [HB]; · iexact HB
    isplitl [HS]; · iexact HS
    isplitl [HV] <;> iassumption
  · isplitl [HU] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 4 => semVal (kcell (c, k)) 0) ∗ bigSep Finset.univ fun k : Fin 4 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- The persistent records every device may keep: every cell's invariant, and that every cell has reached round 0. -/
def records (K : Dev nD × Fin 4 → ℕ) : sProp 𝕄 :=
  iprop((bigSep Finset.univ fun ck : Dev nD × Fin 4 => cellInv ER (Rd m) (K ck) (kcell ck))
    ∗ bigSep Finset.univ fun ck : Dev nD × Fin 4 => reached ER (kcell ck) 0)

instance records_persistent (K : Dev nD × Fin 4 → ℕ) : BI.Persistent (records m K) := by unfold records; infer_instance

omit [FloatOps F] in
theorem inv_at (K : Dev nD × Fin 4 → ℕ) (ck : Dev nD × Fin 4) :
    (bigSep Finset.univ fun ck : Dev nD × Fin 4 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device `c`: its positions, the tokens of the duties it pays, its local-copy semaphores. -/
def linear (c : Dev nD) : sProp 𝕄 :=
  iprop((atPos ER (barCell c) 0 ∅ 0 ∗ atPos ER (sendCell c) 0 ∅ 0 ∗ atPos ER (recvCell c) 0 ∅ 0 ∗ atPos ER (exitCell c) 0 ∅ 0)
    ∗ payToks c ∗ localSems c)

omit [FloatOps F] in
theorem ghost_intro (K : Dev nD × Fin 4 → ℕ) (c : Dev nD) : iprop(records m K ∗ linear c) ⊢ G' m c := by
  unfold records linear G' ghost invs
  iintro ⟨⟨#HI, #HR⟩, Hat, Htok, Hloc⟩
  isplitr [Hloc]
  · iexists K
    isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      isplitr; · iapply (inv_at m K (peer c, 0)); iexact HI
      isplitr; · iapply (inv_at m K (peer c, 2)); iexact HI
      iapply (inv_at m K (peer c, 3)); iexact HI
    isplitl [Hat]; · iexact Hat
    isplitr [Htok]
    · isplitr; · iapply (reached_at (F := F) (peer c, 0)); iexact HR
      isplitr; · iapply (reached_at (F := F) (peer c, 2)); iexact HR
      isplitr; · iapply (reached_at (F := F) (peer c, 3)); iexact HR
      iapply (reached_at (F := F) (c, 1)); iexact HR
    iexact Htok
  · iexact Hloc

omit [FloatOps F] in
/-- The barrier, receive and exit tokens cross to the partner; the send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄)),
    bigSep_univ_equiv swap (fun c : Dev nD => (dutyTok ER (exitCell c) 0 () : sProp 𝕄))]
  iintro ⟨HB, HS, HV, HE⟩
  isplitl [HB]; · iexact HB
  isplitl [HV]; · iexact HV
  isplitl [HE]; · iexact HE
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro :
    iprop((bigSep Finset.univ fun c : Dev nD => bigSep Finset.univ fun k : Fin 4 => (atPos ER (kcell (c, k)) 0 ∅ 0 : sProp 𝕄))
        ∗ (bigSep Finset.univ fun c : Dev nD => (payToks c : sProp 𝕄)) ∗ (bigSep Finset.univ fun c : Dev nD => (localSems c : sProp 𝕄)))
      ⊢ bigSep Finset.univ fun c : Dev nD => (linear c : sProp 𝕄) := by
  rw [← bigSep_sep', ← bigSep_sep']
  refine bigSep_mono fun c _ => ?_
  unfold linear
  rw [bigSep_fin4]
  exact BI.Entails.refl _

omit [FloatOps F] in
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 4 => iprop(∃ κ : ℕ, cellInv ER (Rd m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok, Hloc⟩
  ihave HK := (BI.bigSep_exists_pi Finset.univ (fun (ck : Dev nD × Fin 4) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_intro (F := F))
    isplitl [Hat]; · iexact Hat
    isplitl [Htk]; · iexact Htk
    iexact Hloc

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩
omit [FloatOps F] in
theorem eq_peer_iff {d c : Dev nD} : Iff (peer d = c) (d = peer c) :=
  ⟨fun h => by rw [← h, peer_peer], fun h => by rw [h, peer_peer]⟩

omit [FloatOps F] in
/-- A tally at the partner's cell, read at a device's cell on the same semaphore. -/
theorem tally_peer (sm : SemLoc sig) (n : ℕ) (d c : Dev nD) :
    (tallyAt (((peer d : Dev nD) : Thread nD τ), sm) () n : CellTallies nD τ sig Unit) ((c : Thread nD τ), sm) () = if d = peer c then n else 0 := by
  rw [tallyAt_apply]
  by_cases h : d = peer c
  · subst h; rw [peer_peer, if_pos ⟨rfl, rfl⟩, if_pos rfl]
  · rw [if_neg (fun ⟨h1, _⟩ => h (eq_peer_iff.mp (cell_eq_iff.mp h1).symm)), if_neg h]

omit [FloatOps F] in
/-- A tally at a cell on one semaphore, read at a cell on another, is nothing. -/
theorem tally_other {sm sm' : SemLoc sig} (hne : sm' ≠ sm) (n : ℕ) (d c : Dev nD) :
    (tallyAt (((d : Dev nD) : Thread nD τ), sm) () n : CellTallies nD τ sig Unit) ((c : Thread nD τ), sm') () = 0 := by
  rw [tallyAt_ne_cell (fun h => hne (congrArg Prod.snd h)), Finsupp.zero_apply]

omit [FloatOps F] in
theorem O₀_apply (d : Dev nD) (g : GSem nD τ sig) :
    O₀ d g () = tallyAt (exitCell (peer d)) () 1 g () + tallyAt (recvCell (peer d)) () N g () + tallyAt (barCell (peer d)) () 1 g () := by
  unfold O₀ O₁ O₂
  rw [Pi.add_apply, Finsupp.add_apply, Pi.add_apply, Finsupp.add_apply]

omit [FloatOps F] in
theorem owed_bar (d c : Dev nD) : O₀ d (barCell c) () = if d = peer c then 1 else 0 := by
  rw [O₀_apply, tally_other bar_ne_exit, tally_other recv_ne_bar.symm, tally_peer]
  simp only [Nat.zero_add, Nat.add_zero]
omit [FloatOps F] in
theorem owed_recv (d c : Dev nD) : O₀ d (recvCell c) () = if d = peer c then N else 0 := by
  rw [O₀_apply, tally_other recv_ne_exit, tally_peer, tally_other recv_ne_bar]
  simp only [Nat.zero_add, Nat.add_zero]
omit [FloatOps F] in
theorem owed_exit (d c : Dev nD) : O₀ d (exitCell c) () = if d = peer c then 1 else 0 := by
  rw [O₀_apply, tally_peer, tally_other recv_ne_exit.symm, tally_other exit_ne_bar]
  simp only [Nat.zero_add, Nat.add_zero]

omit [FloatOps F] in
/-- What all devices together owe a cell on semaphore `sm`, when device `d` owes it `n` exactly if it is the partner. -/
theorem launch_of (sm : SemLoc sig) (n : ℕ) (c : Dev nD) (h : ∀ d : Dev nD, O₀ d ((c : Thread nD τ), sm) () = if d = peer c then n else 0) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

omit [FloatOps F] in
theorem creds (c : Dev nD) : (Pipeline.launchCred O₀ c : sProp 𝕄)
    ⊢ iprop(cred (tallyAt (barCell c) () 1) ∗ cred (tallyAt (recvCell c) () N) ∗ cred (tallyAt (exitCell c) () 1)) := by
  unfold Pipeline.launchCred
  refine (bigSep_subset (t := ({SemLoc.reg barS, SemLoc.dma recvS.sem, SemLoc.reg exitS.sem} : Finset (SemLoc sig))) (Finset.subset_univ _)).trans ?_
  rw [bigSep_insert (by decide), bigSep_insert (by decide), bigSep_singleton,
    launch_of (.reg barS) 1 c (fun d => owed_bar d c), launch_of (.dma recvS.sem) N c (fun d => owed_recv d c),
    launch_of (.reg exitS.sem) 1 c (fun d => owed_exit d c)]
  exact BI.Entails.refl _

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Harg, Hout⟩, Hlev, Hcr, -, HG⟩
  ihave Hc := (creds (F := F) c) $$ Hcr
  unfold G'
  icases HG with ⟨HG, Hloc⟩
  imodintro
  unfold start arrays
  isplitl
  · isplitl [HG]; · iexact HG
    isplitl [Hc]; · iexact Hc
    isplitl [Hlev]; · iexact Hlev
    isplitl [Hloc]; · iexact Hloc
    isplitl [Harg]; · iexact Harg
    iexact Hout
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(arrays m c (outVal m c) ∗ Pipeline.ownSems0 osem c ∗ Pipeline.scopedRest cfg0.spec c) := by
  rw [show (dats m 0 c).Φ (Fin.last cfg0.N) = Φ₁ m c from rfl, scopedRest0_eq, ownSems0_eq]
  unfold Φ₁ ownZero localSems
  iintro ⟨Harr, ⟨⟨HU, HD⟩, HS, HV, HE⟩, Hscr⟩
  isplitl [Harr]; · iexact Harr
  isplitr [Hscr]
  · isplitl [HU]; · iexact HU
    isplitl [HD]; · iexact HD
    isplitl [HS]; · iexact HS
    isplitl [HV] <;> iassumption
  · iexact Hscr

theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- At the compiled mesh of sixteen devices, for any float values, from any memory with zero counters: if every
    device's body meets its obligation, every weakly fair execution of @main terminates, and every final state has
    each device's result array holding the half it kept beside the half its partner sent, and its argument array
    as launched. -/
theorem run_main (hbody : ∀ c : Dev nD, BodyObligation (dats (F := F) m 0 c) (defs₀ (F := F)) 𝒱₀ () Set.univ) :
    θ_run defs (onTc (τ := τ) (main (F := F))) (s₀ m ρ) (fun r => ∀ c : Dev nD,
      r.2.mem ((c.tc : Thread nD τ).loc main_v1) = outVal m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb embR _ _) $$ HX
      icases HX' with ⟨HR, -⟩
      imod (fund_ring m) $$ HR with HG
      imodintro
      isplitl [HP] <;> iassumption)
    (hglob := glob m)
    (hA := fun _ w => w.elim0) (hpf := fun _ k => k.elim0)
    (X := start m) (Y := fun c => arrays m c (outVal m c)) (Z := fun _ => iprop(emp))
    (hX := start_intro m ρ) (hin := phi0_intro m) (hout := phi1_exit m)
    (QY := fun c s => s.mem ((c.tc : Thread nD τ).loc main_v1) = outVal m c ∧ s.mem ((c.tc : Thread nD τ).loc main_arg0) = xA m c)
    (hY := fun c s' => by
      unfold arrays
      iintro ⟨⟨Ha, Ho⟩, -, HSI⟩
      icombine HSI Ha gives %ha
      icombine HSI Ho gives %ho
      imodintro
      isplitr; · ipureintro; exact ⟨Buf.eq_of_forall_mem_univ ho, Buf.eq_of_forall_mem_univ ha⟩
      iexact HSI)
    (hQ := fun _ h c => (h c).2.2)

/-- info: 'Cert.Kernel.A2A.run_main' depends on axioms: [propext, Classical.choice, Quot.sound] -/
#guard_msgs in #print axioms run_main

end Cert.Kernel.A2A

end
-- ==== Proof.Kernel.Geom.lean ====
/-
  The geometry of the slices.

  A device's first mesh coordinate q = c / 8 is 0 or 1 and its partner's is 1 - q. The result array's row slice of
  device d starts at row 4096 (d / 8); the argument's far column slice at column 1024 - 1024 (d / 8), its near
  column slice at column 1024 (d / 8). Hence a device's row slice and its partner's do not meet and together
  cover the result array, and the near and far column slices of one device do not meet.
-/
import proofs.«900635_g7700000000000636_dist_a2a_v7x_xyz2x2x4_x_m4096_n1024_f32_1_alg».proof.Proof.Kernel.Vals
import Idealize.ShloMosaic.Lib.Pipeline.Value
import Idealize.ShloMosaic.Lib.Writes

noncomputable section

namespace Cert.Kernel.A2A

open Cert.Kernel Cert.Kernel.Gen Idealize.ShloMosaic Idealize.ShloMosaic.TcCoe Idealize.SL.Sem

/-! ## The first mesh coordinate -/

/-- The first mesh coordinate is 0 or 1, -/
theorem row_le (c : Dev nD) : c.val / 8 ≤ 1 := by have hc : c.val < 16 := c.isLt; omega
/-- and the partner has the other one. -/
theorem peer_row (c : Dev nD) : (peer c).val / 8 = 1 - c.val / 8 := by
  have hc : c.val < 16 := c.isLt
  show (c.val + 8) % 16 / 8 = 1 - c.val / 8
  omega

/-! ## The slices' offsets, coordinate by coordinate -/

theorem off1_0 (d : Dev nD) : k0_off1 d 0 = 4096 * (d.val / 8) := congrFun (k0_off1_eq d) 0
theorem off1_1 (d : Dev nD) : k0_off1 d 1 = 0 := congrFun (k0_off1_eq d) 1
theorem off2_0 (d : Dev nD) : k0_off2 d 0 = 0 := congrFun (k0_off2_eq d) 0
theorem off2_1 (d : Dev nD) : k0_off2 d 1 = 1024 - 1024 * (d.val / 8) := congrFun (k0_off2_eq d) 1
theorem off3_0 (d : Dev nD) : k0_off3 d 0 = 0 := congrFun (k0_off3_eq d) 0
theorem off3_1 (d : Dev nD) : k0_off3 d 1 = 1024 * (d.val / 8) := congrFun (k0_off3_eq d) 1

/-! ## The two row slices cover the result array, and do not meet -/

/-- An index of the result array whose row lies in device `d`'s 4096 rows is under `d`'s row slice. -/
theorem exists_rows (d : Dev nD) (i : S8192x1024.Idx) (hlo : k0_off1 d 0 ≤ (i 0).val)
    (hhi : (i 0).val < k0_off1 d 0 + 4096) : ∃ y : S4096x1024.Idx, (outRows d).view.emb y = i := by
  refine ⟨Shape.pair ⟨(i 0).val - k0_off1 d 0, by show _ < 4096; omega⟩ ⟨(i 1).val, (i 1).isLt⟩, ?_⟩
  funext b; apply Fin.ext; revert b
  refine Fin.forall_fin_two.mpr ⟨?_, ?_⟩
  · show k0_off1 d 0 + 1 * ((i 0).val - k0_off1 d 0) = (i 0).val
    omega
  · show k0_off1 d 1 + 1 * (i 1).val = (i 1).val
    rw [off1_1]; omega

/-- Every index of the result array is under the device's own row slice or under its partner's. -/
theorem cover (c : Dev nD) (i : S8192x1024.Idx) :
    (∃ y : S4096x1024.Idx, (outRows c).view.emb y = i) ∨ (∃ y : S4096x1024.Idx, (outRows (peer c)).view.emb y = i) := by
  have hi : (i 0).val < 8192 := (i 0).isLt
  have hq := row_le c
  by_cases hc : k0_off1 c 0 ≤ (i 0).val ∧ (i 0).val < k0_off1 c 0 + 4096
  · exact Or.inl (exists_rows c i hc.1 hc.2)
  · refine Or.inr (exists_rows (peer c) i ?_ ?_) <;>
      (rw [off1_0] at hc ⊢; rw [peer_row]; omega)

/-- The partner's rows are none of the device's own. -/
theorem not_mem_own (c : Dev nD) (y : S4096x1024.Idx) :
    (outRows (peer c)).view.emb y ∉ (outRows c).view.setOn Finset.univ := by
  have hy : (y 0).val < 4096 := (y 0).isLt
  have hq := row_le c
  have hset : (outRows c).view.set = (Rect.unit (s := S8192x1024) (k0_off1 c) S4096x1024.size (k0_off1_inb c)).set :=
    View.set_slice_whole main_v1 _
  rw [View.setOn_univ, hset, Rect.mem_set_unit]
  intro hmem
  have h0 : k0_off1 c 0 ≤ k0_off1 (peer c) 0 + 1 * (y 0).val
      ∧ k0_off1 (peer c) 0 + 1 * (y 0).val < k0_off1 c 0 + 4096 := hmem 0
  rw [off1_0, off1_0, peer_row] at h0
  omega

/-! ## The slices as sets -/

/-- An element is under a view exactly when it is the image of one of the view's indices. -/
theorem mem_set_iff {sig' : RefSig} {κ : Kind} {sp : Space} {S : Shape} {e : EltTy} (v : View sig' κ sp S e) (i : v.ty.Idx) :
    i ∈ v.set ↔ ∃ y : S.Idx, v.emb y = i :=
  ⟨fun h => View.exists_emb_of_mem_set v h, fun ⟨y, hy⟩ => hy ▸ v.emb_mem_set y⟩

/-- A device's own result rows and its partner's do not meet. -/
theorem rows_disjoint (c : Dev nD) : Disjoint (outRows (peer c)).view.set (outRows c).view.set := by
  rw [Finset.disjoint_left]
  intro i hi
  obtain ⟨y, rfl⟩ := (mem_set_iff _ i).mp hi
  have := not_mem_own c y
  rwa [View.setOn_univ] at this

/-- The near columns are none of the far ones. -/
theorem not_mem_far (c : Dev nD) (y : S4096x1024.Idx) : (argNear c).view.emb y ∉ (argFar c).view.set := by
  have hy : (y 1).val < 1024 := (y 1).isLt
  have hq := row_le c
  have hset : (argFar c).view.set = (Rect.unit (s := S4096x2048) (k0_off2 c) S4096x1024.size (k0_off2_inb c)).set :=
    View.set_slice_whole main_arg0 _
  rw [hset, Rect.mem_set_unit]
  intro hmem
  have h1 : k0_off2 c 1 ≤ k0_off3 c 1 + 1 * (y 1).val
      ∧ k0_off3 c 1 + 1 * (y 1).val < k0_off2 c 1 + 1024 := hmem 1
  rw [off2_1, off3_1] at h1
  omega

/-- A device's near and far argument columns do not meet. -/
theorem cols_disjoint (c : Dev nD) : Disjoint (argNear c).view.set (argFar c).view.set := by
  rw [Finset.disjoint_left]
  intro i hi
  obtain ⟨y, rfl⟩ := (mem_set_iff _ i).mp hi
  exact not_mem_far c y

/-! ## Reading the result array through the slices -/

/-- On its own rows the result holds the half the device kept. -/
theorem outVal_own {F : FTy → Type} [FloatOps F] (m : (ℓ : Loc nD τ sig) → Buf (Elt F) ℓ) (c : Dev nD)
    (y : S4096x1024.Idx) : outVal m c ((outRows c).view.emb y) = kept m c y := by
  unfold outVal
  rw [View.write_emb_of_mem _ _ (Finset.mem_univ y)]
  rfl

/-- On its partner's rows the result holds the half the partner sent. -/
theorem outVal_far {F : FTy → Type} [FloatOps F] (m : (ℓ : Loc nD τ sig) → Buf (Elt F) ℓ) (c : Dev nD)
    (y : S4096x1024.Idx) : outVal m c ((outRows (peer c)).view.emb y) = sent m (peer c) y := by
  unfold outVal
  rw [View.write_of_not_mem _ _ _ (not_mem_own c y)]
  unfold landed
  rw [View.write_emb_of_mem _ _ (Finset.mem_univ y)]
  rfl

/-- The half kept is the device's block read at the near columns, -/
theorem kept_apply {F : FTy → Type} [FloatOps F] (m : (ℓ : Loc nD τ sig) → Buf (Elt F) ℓ) (c : Dev nD)
    (y : S4096x1024.Idx) : kept m c y = xA m c ((argNear c).view.emb y) := rfl

/-- the half sent, at the far columns. -/
theorem sent_apply {F : FTy → Type} [FloatOps F] (m : (ℓ : Loc nD τ sig) → Buf (Elt F) ℓ) (c : Dev nD)
    (y : S4096x1024.Idx) : sent m c y = xA m c ((argFar c).view.emb y) := rfl

/-! ## The result array's pieces, as the run leaves them, all hold the final contents -/

/-- Reading, at an index of a view, what a write through the view's whole rectangle left. -/
theorem writes_whole_apply {sig' : RefSig} {κ : Kind} {sp : Space} {S : Shape} {e : EltTy} {Val : EltTy → Type}
    (v : View sig' κ sp S e) (f : v.ty.Contents Val) (w : (Rect.whole S).shape.Idx → Val e) (x : (Rect.whole S).shape.Idx) :
    v.read Val (v.writes Val f [⟨Rect.whole S, w⟩]) ((Rect.whole S).emb x) = w x :=
  View.read_writes_cons_emb v f (Rect.whole S) w [] x

/-- On the partner's rows the landed contents are already final: the device's own rows are written elsewhere. -/
theorem far_rows_eq {F : FTy → Type} [FloatOps F] (m : (ℓ : Loc nD τ sig) → Buf (Elt F) ℓ) (c : Dev nD)
    (i : Idx ((c : Thread nD τ).loc main_v1)) (hi : i ∈ (outRows (peer c)).view.set) : landed m c i = outVal m c i := by
  obtain ⟨y, rfl⟩ := (mem_set_iff (outRows (peer c)).view i).mp hi
  unfold outVal
  rw [View.write_of_not_mem _ _ _ (not_mem_own c y)]

/-- Off both row slices the launch contents are never touched. -/
theorem rest_rows_eq {F : FTy → Type} [FloatOps F] (m : (ℓ : Loc nD τ sig) → Buf (Elt F) ℓ) (c : Dev nD)
    (i : Idx ((c : Thread nD τ).loc main_v1))
    (hi : i ∈ (Finset.univ \ (outRows (peer c)).view.set) \ (outRows c).view.set) : o0 m c i = outVal m c i := by
  have h1 : i ∉ (outRows c).view.set := (Finset.mem_sdiff.mp hi).2
  have h2 : i ∉ (outRows (peer c)).view.set := (Finset.mem_sdiff.mp (Finset.mem_sdiff.mp hi).1).2
  unfold outVal landed
  rw [View.write_of_not_mem _ _ _ (by rw [View.setOn_univ]; exact h1), View.write_of_not_mem _ _ _ (by rw [View.setOn_univ]; exact h2)]

end Cert.Kernel.A2A

end
-- ==== Proof.Kernel.Body.lean ====
/-
  The body of the exchange on one device, stepped from the device's invariant.

  The device hands its partner the rows of its own result array that the partner fills (the entry signal), waits for
  the same from its partner, and then transfers the half of its columns its partner needs into those rows of the
  partner's array. Meanwhile it copies the half it keeps through the scratch buffer into its own rows. It then waits
  for its transfer's source to be read back and for its partner's transfer to have landed, and exchanges one last
  signal. What it holds at the end is its argument array whole and unchanged, and its result array in three pieces
  — its own rows, its partner's rows, and nothing else — each of which holds the final contents there, so they join
  to the whole result array at those contents.
-/
import proofs.«900635_g7700000000000636_dist_a2a_v7x_xyz2x2x4_x_m4096_n1024_f32_1_alg».proof.Proof.Kernel.Data
import proofs.«900635_g7700000000000636_dist_a2a_v7x_xyz2x2x4_x_m4096_n1024_f32_1_alg».proof.Proof.Kernel.Geom
import proofs.«900635_g7700000000000636_dist_a2a_v7x_xyz2x2x4_x_m4096_n1024_f32_1_alg».proof.Proof.Gen.Kernel.Skeleton
import proofs.«900635_g7700000000000636_dist_a2a_v7x_xyz2x2x4_x_m4096_n1024_f32_1_alg».proof.Proof.Gen.Kernel.Points
import Idealize.ShloMosaic.Lib.Tactic

noncomputable section

namespace Cert.Kernel.A2A

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_rounds] duties_bar duties_send duties_recv duties_exit amount_bar amount_exit
  payload_exit expect_bar expect_exit
attribute [local sl_canon] dev1_eq dev2_eq dev3_eq

/-! ## Cutting and joining a buffer by regions -/

omit [FloatOps F] in
/-- A region held splits along a subregion. -/
theorem pointsTo_split (ℓ : Loc nD τ sig) (I S : Finset (Idx ℓ)) (h : I ⊆ S) (q : PosShare TreeShare) (f : Buf (Elt F) ℓ) :
    (ℓ ↦[S]{q} f : sProp 𝕄) ⊣⊢ iprop((ℓ ↦[I]{q} f) ∗ (ℓ ↦[S \ I]{q} f)) :=
  BI.Region.is_split_subset h

omit [FloatOps F] in
/-- Only the values on the region matter. -/
theorem pointsTo_congr (ℓ : Loc nD τ sig) (I : Finset (Idx ℓ)) (q : PosShare TreeShare) (f g : Buf (Elt F) ℓ)
    (h : ∀ i ∈ I, f i = g i) : (ℓ ↦[I]{q} f : sProp 𝕄) = (ℓ ↦[I]{q} g) :=
  BI.Region.is_congr h

/-! ## The schedule's payloads, spelt as the buffers they are -/

omit [FloatOps F] in
theorem pay_bar_own (c : Dev nD) (u : Unit) : (Rd (F := F) m).payload (barCell c) 0 u
    = ((outRows c).view.loc (peer c : Thread nD τ) ↦[(outRows c).view.set]{fullShare} o0 m (peer c)) := by
  rw [payload_bar]; rfl
omit [FloatOps F] in
/-- What device `c`'s entry signal hands its partner: `c`'s own result rows that the partner fills. -/
theorem pay_bar_peer (c : Dev nD) (u : Unit) : (Rd (F := F) m).payload (barCell (peer c)) 0 u
    = ((outRows (peer c)).view.loc (c : Thread nD τ) ↦[(outRows (peer c)).view.set]{fullShare} o0 m c) := by
  rw [payload_bar]; unfold barPay; rw [peer_peer]
omit [FloatOps F] in
theorem pay_send (c : Dev nD) (u : Unit) : (Rd (F := F) m).payload (sendCell c) 0 u
    = ((argFar c).view.loc (c : Thread nD τ) ↦[(argFar c).view.set]{fullShare} xA m c) := by
  rw [payload_send]; rfl
omit [FloatOps F] in
theorem pay_recv_own (c : Dev nD) (u : Unit) : (Rd (F := F) m).payload (recvCell c) 0 u
    = ((outRows (peer c)).view.loc (c : Thread nD τ) ↦[(outRows (peer c)).view.set]{fullShare} landed m c) := by
  rw [payload_recv]; rfl
omit [FloatOps F] in
/-- What device `c`'s transfer hands its partner: the partner's rows of `c`, rewritten with the half `c` sends. -/
theorem pay_recv_peer (c : Dev nD) (u : Unit) : (Rd (F := F) m).payload (recvCell (peer c)) 0 u
    = ((outRows c).view.loc (peer c : Thread nD τ) ↦[(outRows c).view.set]{fullShare}
        (outRows c).view.write (Elt F) (o0 m (peer c)) ((argFar c).view.read (Elt F) (xA m c)) Finset.univ) := by
  rw [payload_recv]; unfold recvPay landed sent; rw [peer_peer]

omit [FloatOps F] in
/-- A whole buffer, spelt through its memref's view. -/
theorem whole_view (c : Dev nD) (b : Ref sig .tc) (f : Buf (Elt F) ((c : Thread nD τ).loc b)) :
    ((((c : Thread nD τ).loc b) ↦{fullShare} f) : sProp 𝕄)
      = ((Memref.whole b).view.loc (c : Thread nD τ) ↦[(Memref.whole b).view.set]{fullShare} f) := by
  rw [View.set_whole]

/-! ## The schedule's amounts, spelt as the views' credit -/

omit [FloatOps F] in
theorem amt_send (c : Dev nD) (u : Unit) : (Rd (F := F) m).amount (sendCell c) 0 u = (outRows c).view.amount (SemLoc.dma recvS.sem) :=
  (amount_send m c u).trans (N_out c).symm
omit [FloatOps F] in
theorem amt_recv_peer (c : Dev nD) (u : Unit) : (Rd (F := F) m).amount (recvCell (peer c)) 0 u = (outRows c).view.amount (SemLoc.dma recvS.sem) :=
  (amount_recv m (peer c) u).trans (N_out c).symm
omit [FloatOps F] in
theorem exp_send (c : Dev nD) : (Rd (F := F) m).expect (sendCell c) 0 = (argFar c).view.dmaCredit :=
  (expect_send m c).trans (N_far c).symm
omit [FloatOps F] in
theorem exp_recv (c : Dev nD) : (Rd (F := F) m).expect (recvCell c) 0 = (outRows c).view.dmaCredit :=
  (expect_recv m c).trans (N_out c).symm

/-! ## The device's own rows, as the two local copies leave them -/

/-- The own rows hold the half the device kept: the scratch buffer read back, which holds the near columns read. -/
theorem own_rows_eq (c : Dev nD) (fscr : Buf (Elt F) ((c : Thread nD τ).loc cc0_scratch0))
    (i : Idx ((c : Thread nD τ).loc main_v1)) (hi : i ∈ (outRows c).view.set) :
    ((outRows c).view.writes (Elt F) (o0 m c)
        [⟨Rect.whole S4096x1024, ReadAs.same.apply (View.read (Elt F) (scrM : Memref sig .tc .vmem S4096x1024 .f32).view
            ((scrM : Memref sig .tc .vmem S4096x1024 .f32).view.writes (Elt F) fscr
              [⟨Rect.whole (cc0_scratch0 : Ref sig .tc).ty.shape, ReadAs.same.apply (View.read (Elt F) (argNear c).view (xA m c))⟩]))⟩]) i
      = outVal m c i := by
  obtain ⟨y, rfl⟩ := (mem_set_iff (outRows c).view i).mp hi
  rw [outVal_own]
  have h1 := writes_whole_apply (outRows c).view (o0 m c)
    (ReadAs.same.apply (View.read (Elt F) (scrM : Memref sig .tc .vmem S4096x1024 .f32).view
            ((scrM : Memref sig .tc .vmem S4096x1024 .f32).view.writes (Elt F) fscr
              [⟨Rect.whole (cc0_scratch0 : Ref sig .tc).ty.shape, ReadAs.same.apply (View.read (Elt F) (argNear c).view (xA m c))⟩]))) y
  rw [Rect.emb_whole_apply, View.read_apply, cast_eq] at h1
  rw [h1, ReadAs.apply_same]
  have h2 := writes_whole_apply (scrM : Memref sig .tc .vmem S4096x1024 .f32).view fscr
    (ReadAs.same.apply (View.read (Elt F) (argNear c).view (xA m c))) y
  rw [Rect.emb_whole_apply] at h2
  refine h2.trans ?_
  rw [ReadAs.apply_same]
  rfl

attribute [local sl_rounds] pay_bar_own pay_send pay_recv_own amt_send exp_send exp_recv
attribute [local sl_rounds high] pay_bar_peer pay_recv_peer amt_recv_peer

/-! ## The body -/

set_option maxHeartbeats 1600000 in
/-- The body, stepped from the device's invariant to the invariant after the point. -/
theorem sound_body (K : Dev nD × Fin 4 → ℕ) (c : Dev nD) (W : Waits sig Unit)
    (fscr : Buf (Elt F) ((c : Thread nD τ).loc cc0_scratch0)) (Kt : PUnit → sProp 𝕄) :
    iprop((ghost m K c
        ∗ (cred (tallyAt (barCell c) () 1) ∗ cred (tallyAt (recvCell c) () N) ∗ cred (tallyAt (exitCell c) () 1))
        ∗ levAts L lv ∗ localSems c ∗ arrays m c (o0 m c)
        ∗ (((c : Thread nD τ).loc cc0_scratch0) ↦{fullShare} fscr)
        ∗ owes (c : Thread nD τ) (O₀ c) W)
        ∗ (iprop(Φ₁ m c ∗ ∃ W' : Waits sig Unit, owes (c : Thread nD τ) 0 W') -∗ Kt ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3 cc0_scratch4 cc0_scoped0) Kt := by
  unfold ghost invs payToks localSems arrays
  iintro ⟨⟨⟨⟨#HIbar, #HIsnd, #HIrcv, #HIext, #HIbarP, #HIrcvP, #HIextP⟩, ⟨HatB, HatS, HatV, HatE⟩, ⟨#HrBP, #HrVP, #HrEP, #HrS⟩, ⟨HtBP, HtVP, HtEP, HtS⟩⟩,
    ⟨HcB, HcV, HcE⟩, #Hlev, ⟨HsU, HsD⟩, ⟨Harg, Hout⟩, Hscr, HO⟩, Hk⟩
  unfold O₀ O₁ O₂
  sl_unfold [cc0_body, k0_part1]
  -- the result array: the partner's rows, the device's own rows, the rest
  ihave Hs := (pointsTo_split ((c : Thread nD τ).loc main_v1) (outRows (peer c)).view.set Finset.univ (Finset.subset_univ _) fullShare (o0 m c)).1 $$ Hout
  icases Hs with ⟨Hrem, Hrest⟩
  ihave Hs := (pointsTo_split ((c : Thread nD τ).loc main_v1) (outRows c).view.set (Finset.univ \ (outRows (peer c)).view.set)
    (Finset.subset_sdiff.mpr ⟨Finset.subset_univ _, (rows_disjoint c).symm⟩) fullShare (o0 m c)).1 $$ Hrest
  icases Hs with ⟨Hown, HrestO⟩
  ihave Hrem' := (Entails.of_eq (show ((((c : Thread nD τ).loc main_v1) ↦[(outRows (peer c)).view.set]{fullShare} o0 m c : sProp 𝕄)) = ((outRows (peer c)).view.loc (c : Thread nD τ) ↦[(outRows (peer c)).view.set]{fullShare} o0 m c) from rfl)) $$ Hrem
  ihave Hown' := (Entails.of_eq (show ((((c : Thread nD τ).loc main_v1) ↦[(outRows c).view.set]{fullShare} o0 m c : sProp 𝕄)) = ((outRows c).view.loc (c : Thread nD τ) ↦[(outRows c).view.set]{fullShare} o0 m c) from rfl)) $$ Hown
  -- the argument array: the far columns, the near columns, the rest
  ihave Ha := (pointsTo_split ((c : Thread nD τ).loc main_arg0) (argFar c).view.set Finset.univ (Finset.subset_univ _) fullShare (xA m c)).1 $$ Harg
  icases Ha with ⟨Hfar, HrestA⟩
  ihave Ha := (pointsTo_split ((c : Thread nD τ).loc main_arg0) (argNear c).view.set (Finset.univ \ (argFar c).view.set)
    (Finset.subset_sdiff.mpr ⟨Finset.subset_univ _, cols_disjoint c⟩) fullShare (xA m c)).1 $$ HrestA
  icases Ha with ⟨Hnear, HrestA⟩
  ihave Hfar' := (Entails.of_eq (show ((((c : Thread nD τ).loc main_arg0) ↦[(argFar c).view.set]{fullShare} xA m c : sProp 𝕄)) = ((argFar c).view.loc (c : Thread nD τ) ↦[(argFar c).view.set]{fullShare} xA m c) from rfl)) $$ Hfar
  ihave Hnear' := (Entails.of_eq (show ((((c : Thread nD τ).loc main_arg0) ↦[(argNear c).view.set]{fullShare} xA m c : sProp 𝕄)) = ((argNear c).view.loc (c : Thread nD τ) ↦[(argNear c).view.set]{fullShare} xA m c) from rfl)) $$ Hnear
  ihave Hscr' := (Entails.of_eq (whole_view c cc0_scratch0 fscr)) $$ Hscr
  -- what is owed and the receive credit, in the views' own terms
  ihave HO := (Entails.of_eq (show (owes (c : Thread nD τ) (tallyAt (exitCell (peer c)) () 1 + tallyAt (recvCell (peer c)) () N + tallyAt (barCell (peer c)) () 1) W : sProp 𝕄)
      = owes (c : Thread nD τ) (tallyAt (exitCell (peer c)) () 1 + tallyAt (recvCell (peer c)) () ((outRows c).view.amount (SemLoc.dma recvS.sem)) + tallyAt (barCell (peer c)) () 1) W
      from by rw [show (outRows c).view.amount (SemLoc.dma recvS.sem) = N from N_out c])) $$ HO
  ihave HcV := (Entails.of_eq (show (cred (tallyAt (recvCell c) () N) : sProp 𝕄) = cred (tallyAt (recvCell c) () (outRows c).view.dmaCredit)
      from by rw [N_out c])) $$ HcV
  have hmwB : (levAts L lv : sProp 𝕄) ⊢ MayWait (c : Thread nD τ) (.reg barS) ()
      (tallyAt (exitCell (peer c)) () 1 + tallyAt (recvCell (peer c)) () ((outRows c).view.amount (SemLoc.dma recvS.sem))) := by
    rw [show (outRows c).view.amount (SemLoc.dma recvS.sem) = N from N_out c]; exact mayWait_bar c
  have hmwS : (levAts L lv : sProp 𝕄) ⊢ MayWait (c : Thread nD τ) (.dma sendS.sem) () (tallyAt (exitCell (peer c)) () 1) :=
    mayWait_low c _ (by rw [lv_send]; decide)
  have hmwV : (levAts L lv : sProp 𝕄) ⊢ MayWait (c : Thread nD τ) (.dma recvS.sem) () (tallyAt (exitCell (peer c)) () 1) :=
    mayWait_low c _ (by rw [lv_recv])
  have hlvU : lv ((c : Thread nD τ), SemLoc.dma upS.sem) () ≤ 2 := by
    dsimp only [lv]; rw [if_neg (fun h => by cases h), if_neg (by decide), if_neg (fun h => by cases h)]; decide
  have hlvD : lv ((c : Thread nD τ), SemLoc.dma downS.sem) () ≤ 2 := by
    dsimp only [lv]; rw [if_neg (fun h => by cases h), if_neg (by decide), if_neg (fun h => by cases h)]; decide
  have hmwU : (levAts L lv : sProp 𝕄) ⊢ MayWait (c : Thread nD τ) (.dma upS.sem) () (tallyAt (exitCell (peer c)) () 1) :=
    mayWait_low c _ hlvU
  have hmwD : (levAts L lv : sProp 𝕄) ⊢ MayWait (c : Thread nD τ) (.dma downS.sem) () (tallyAt (exitCell (peer c)) () 1) :=
    mayWait_low c _ hlvD
  have hdA : Disjoint (argNear c).view.set (argFar c).view.set := cols_disjoint c
  have hdA' : Disjoint (argFar c).view.set (argNear c).view.set := (cols_disjoint c).symm
  have hdO : Disjoint (outRows (peer c)).view.set (outRows c).view.set := rows_disjoint c
  have hdO' : Disjoint (outRows c).view.set (outRows (peer c)).view.set := (rows_disjoint c).symm
  sl_exec (disch := first | simp only [dev1_eq, dev2_eq, dev3_eq] | rfl | omega)
  sl_unfold_run_names
  -- the three own cells close: their counters at zero are the device's again
  imod (Rounds.cell_close ER (Rd m) (Set.mem_univ (K (c, 1))) (fun h => h) (R := 0 + 1) (duties_later m (sendCell c))) $$ [HatS] with HzS
  · isplitr; · iexact HIsnd
    iexact HatS
  imod (Rounds.cell_close ER (Rd m) (Set.mem_univ (K (c, 2))) (fun h => h) (R := 0 + 1) (duties_later m (recvCell c))) $$ [HatV] with HzV
  · isplitr; · iexact HIrcv
    iexact HatV
  imod (Rounds.cell_close ER (Rd m) (Set.mem_univ (K (c, 3))) (fun h => h) (R := 0 + 1) (duties_later m (exitCell c))) $$ [HatE] with HzE
  · isplitr; · iexact HIext
    iexact HatE
  rw [wp_ret]; imodintro
  -- the argument array whole again
  ihave Harg := (pointsTo_split ((c : Thread nD τ).loc main_arg0) (argFar c).view.set Finset.univ (Finset.subset_univ _) fullShare (xA m c)).2 $$ [HatS_pay1 HrestA]
  · isplitl [HatS_pay1]; · iexact HatS_pay1
    iexact HrestA
  -- the result array's three pieces at the final contents, then whole
  ihave Hown2 := (Entails.of_eq (pointsTo_congr ((c : Thread nD τ).loc main_v1) (outRows c).view.set fullShare _ (outVal m c) (own_rows_eq m c fscr))) $$ Hown'
  ihave Hrem2 := (Entails.of_eq (pointsTo_congr ((c : Thread nD τ).loc main_v1) (outRows (peer c)).view.set fullShare (landed m c) (outVal m c) (far_rows_eq m c))) $$ HatV_pay1
  ihave HrestO2 := (Entails.of_eq (pointsTo_congr ((c : Thread nD τ).loc main_v1) ((Finset.univ \ (outRows (peer c)).view.set) \ (outRows c).view.set) fullShare (o0 m c) (outVal m c) (rest_rows_eq m c))) $$ HrestO
  ihave Hmid := (pointsTo_split ((c : Thread nD τ).loc main_v1) (outRows c).view.set (Finset.univ \ (outRows (peer c)).view.set)
    (Finset.subset_sdiff.mpr ⟨Finset.subset_univ _, (rows_disjoint c).symm⟩) fullShare (outVal m c)).2 $$ [Hown2 HrestO2]
  · isplitl [Hown2]; · iexact Hown2
    iexact HrestO2
  ihave Hout := (pointsTo_split ((c : Thread nD τ).loc main_v1) (outRows (peer c)).view.set Finset.univ (Finset.subset_univ _) fullShare (outVal m c)).2 $$ [Hrem2 Hmid]
  · isplitl [Hrem2]; · iexact Hrem2
    iexact Hmid
  ihave Hscr := (Entails.of_eq (whole_view c cc0_scratch0 _).symm) $$ Hscr'
  iapply Hk
  unfold Φ₁ arrays ownZero localSems
  isplitr [HO]
  · isplitl [Harg Hout]
    · isplitl [Harg]; · iexact Harg
      iexact Hout
    isplitl [HsU HsD HzS HzV HzE]
    · isplitl [HsU HsD]
      · isplitl [HsU]; · iexact HsU
        iexact HsD
      isplitl [HzS]; · iexact HzS
      isplitl [HzV]; · iexact HzV
      iexact HzE
    iexists _; iexact Hscr
  · iexists _; iexact HO

/-! ## The body obligation -/

/-- The library's body obligation on device `c`: the one grid point, no window. -/
theorem body_obligation (m : (ℓ : Loc nD τ sig) → Buf (Elt F) ℓ) (c : Dev nD) :
    BodyObligation (dats (F := F) m 0 c) (defs₀ (F := F)) 𝒱₀ () Set.univ := fun t => by
  rw [fin_N0 t]
  simp only [Finset.univ_eq_empty, BI.bigSep_empty]
  show iprop(Φ₀ m c ∗ (dats (F := F) m 0 c).owesAt () t0_0.castSucc ∗ emp)
    ⊢ wp frame (wpE (defs₀ (F := F)) 𝒱₀ c none) Set.univ
        (cc0_body (Memref.whole main_arg0) (Memref.isWhole_whole _) (Memref.whole main_v1) (Memref.isWhole_whole _)
          (Memref.whole cc0_scratch0) (Memref.isWhole_whole _) cc0_scratch1 cc0_scratch2 cc0_scratch3 cc0_scratch4 cc0_scoped0)
        (fun _ => iprop(Φ₁ m c ∗ (dats (F := F) m 0 c).owesAt () t0_0.succ ∗ emp))
  unfold Φ₀ start Dat.owesAt Pipeline.owesWithin
  rw [show (dats (F := F) m 0 c).owed t0_0.castSucc = O₀ c from rfl, show (dats (F := F) m 0 c).owed t0_0.succ = 0 from rfl]
  iintro ⟨⟨⟨⟨%K, Hg⟩, Hcr, Hlev, Hls, Harr⟩, ⟨%fscr, Hscr⟩⟩, ⟨%W, %hW, HO⟩, -⟩
  iapply (sound_body m K c W fscr _)
  isplitl
  · isplitl [Hg]; · iexact Hg
    isplitl [Hcr]; · iexact Hcr
    isplitl [Hlev]; · iexact Hlev
    isplitl [Hls]; · iexact Hls
    isplitl [Harr]; · iexact Harr
    isplitl [Hscr]; · iexact Hscr
    iexact HO
  · iintro ⟨HΦ, ⟨%W', HO'⟩⟩
    isplitl [HΦ]; · iexact HΦ
    isplitl
    · iexists W'
      isplitr; · ipureintro; exact fun _ _ => Or.inl trivial
      iexact HO'
    · iempintro

/-- info: 'Cert.Kernel.A2A.body_obligation' depends on axioms: [propext, Classical.choice, Quot.sound] -/
#guard_msgs in #print axioms body_obligation

end Cert.Kernel.A2A

end
-- ==== Proof.Value.lean ====
/-
  The value of the exchange.

  The whole array has 8192 rows and 2048 columns. Device c, at first mesh coordinate q = c / 8, is launched
  with rows [4096 q, 4096 q + 4096) of it, all columns. Its result array has 8192 rows and 1024 columns and is
  written through two row slices: its own rows [4096 q, 4096 q + 4096) take columns [1024 q, 1024 q + 1024) of
  its own block, and the other 4096 rows take the same columns of its partner's block, which holds the other
  4096 rows of the whole array. Row for row, then, the result is the whole array at columns
  [1024 q, 1024 q + 1024): block q of the whole array cut along the columns. Everything here is an equation
  between indices; no float is computed.
-/
import proofs.«900635_g7700000000000636_dist_a2a_v7x_xyz2x2x4_x_m4096_n1024_f32_1_alg».proof.Proof.KernelIdeal.Geom
import proofs.«900635_g7700000000000636_dist_a2a_v7x_xyz2x2x4_x_m4096_n1024_f32_1_alg».proof.ReferenceIdeal
import Idealize.ShloMosaic.Lib.Layout
import Idealize.ShloMosaic.Lib.Pipeline.Value
import Idealize.ShloMosaic.PureOps.Ideal

noncomputable section

namespace Cert.KernelIdeal.A2A

open Cert.KernelIdeal Cert.KernelIdeal.Gen Idealize.ShloMosaic Idealize.ShloMosaic.TcCoe Idealize.SL.Sem

/-! ## The mesh: which block a device holds -/

/-- Along a dimension cut by the first mesh axis, device `c` holds block `c / 8`. -/
theorem lin_cut (c : Dev nD) : Layout.meshLin [2, 2, 4] c.val [0] = c.val / 8 := by revert c; decide
/-- Along a dimension that is not cut there is one block. -/
theorem lin_whole (c : Dev nD) : Layout.meshLin [2, 2, 4] c.val [] = 0 := rfl

/-! ## Where the blocks' indices land in the whole array -/

/-- The device's own block at its near columns, and the column block of the whole array at the device's own
    rows, are the same elements of the whole array. -/
theorem block_own {F : FTy → Type} [FloatOps F] (V : (⟨2, ![8192, 2048]⟩ : Shape).Idx → Elt F .f32) (c : Dev nD)
    (y : S4096x1024.Idx) :
    (Layout.blockN ⟨2, ![4096, 2048]⟩ ⟨2, ![8192, 2048]⟩ (Layout.meshBlock [2, 2, 4] ![[0], []] c) V) ((argNear c).view.emb y)
      = (Layout.blockN ⟨2, ![8192, 1024]⟩ ⟨2, ![8192, 2048]⟩ (Layout.meshBlock [2, 2, 4] ![[], [0]] c) V) ((outRows c).view.emb y) := by
  have hq := row_le c
  rw [Layout.blockN_apply, Layout.blockN_apply]
  refine congrArg V ?_
  funext b; apply Fin.ext; revert b
  refine Fin.forall_fin_two.mpr ⟨?_, ?_⟩
  · show Layout.meshLin [2, 2, 4] c.val [0] * 4096 + (k0_off3 c 0 + 1 * (y 0).val)
        = Layout.meshLin [2, 2, 4] c.val [] * 8192 + (k0_off1 c 0 + 1 * (y 0).val)
    rw [lin_cut, lin_whole, off3_0, off1_0]; omega
  · show Layout.meshLin [2, 2, 4] c.val [] * 2048 + (k0_off3 c 1 + 1 * (y 1).val)
        = Layout.meshLin [2, 2, 4] c.val [0] * 1024 + (k0_off1 c 1 + 1 * (y 1).val)
    rw [lin_cut, lin_whole, off3_1, off1_1]; omega

/-- The partner's block at its far columns, and the column block of the whole array at the partner's rows,
    are the same elements of the whole array. -/
theorem block_far {F : FTy → Type} [FloatOps F] (V : (⟨2, ![8192, 2048]⟩ : Shape).Idx → Elt F .f32) (c : Dev nD)
    (y : S4096x1024.Idx) :
    (Layout.blockN ⟨2, ![4096, 2048]⟩ ⟨2, ![8192, 2048]⟩ (Layout.meshBlock [2, 2, 4] ![[0], []] (peer c)) V) ((argFar (peer c)).view.emb y)
      = (Layout.blockN ⟨2, ![8192, 1024]⟩ ⟨2, ![8192, 2048]⟩ (Layout.meshBlock [2, 2, 4] ![[], [0]] c) V) ((outRows (peer c)).view.emb y) := by
  have hq := row_le c
  rw [Layout.blockN_apply, Layout.blockN_apply]
  refine congrArg V ?_
  funext b; apply Fin.ext; revert b
  refine Fin.forall_fin_two.mpr ⟨?_, ?_⟩
  · show Layout.meshLin [2, 2, 4] (peer c).val [0] * 4096 + (k0_off2 (peer c) 0 + 1 * (y 0).val)
        = Layout.meshLin [2, 2, 4] c.val [] * 8192 + (k0_off1 (peer c) 0 + 1 * (y 0).val)
    rw [lin_cut, lin_whole, off2_0, off1_0]; omega
  · show Layout.meshLin [2, 2, 4] (peer c).val [] * 2048 + (k0_off2 (peer c) 1 + 1 * (y 1).val)
        = Layout.meshLin [2, 2, 4] c.val [0] * 1024 + (k0_off1 (peer c) 1 + 1 * (y 1).val)
    rw [lin_cut, lin_whole, off2_1, off1_1, peer_row]; omega

/-! ## The value -/

/-- If every device is launched with its row block of the whole array, device `c`'s result array ends as its
    column block of the whole array. -/
theorem outVal_eq_block (m : (ℓ : Loc nD τ sig) → Buf (Elt Ideal) ℓ)
    (v0 : Buf (Elt Ideal) (((0 : Dev Cert.ReferenceIdeal.nD).tc : Thread Cert.ReferenceIdeal.nD Cert.ReferenceIdeal.τ).loc Cert.ReferenceIdeal.main_arg0))
    (h : ∀ c : Dev nD, m ((c.tc : Thread nD τ).loc main_arg0)
      = Layout.blockN ⟨2, ![4096, 2048]⟩ ⟨2, ![8192, 2048]⟩ (Layout.meshBlock [2, 2, 4] ![[0], []] c) v0)
    (c : Dev nD) :
    outVal m c = Layout.blockN ⟨2, ![8192, 1024]⟩ ⟨2, ![8192, 2048]⟩ (Layout.meshBlock [2, 2, 4] ![[], [0]] c) v0 := by
  funext i
  rcases cover c i with ⟨y, rfl⟩ | ⟨y, rfl⟩
  · rw [outVal_own, kept_apply]
    unfold xA
    rw [h c]
    exact block_own (F := Ideal) v0 c y
  · rw [outVal_far, sent_apply]
    unfold xA
    rw [h (peer c)]
    exact block_far (F := Ideal) v0 c y

/-- info: 'Cert.KernelIdeal.A2A.outVal_eq_block' depends on axioms: [propext, Classical.choice, Quot.sound] -/
#guard_msgs in #print axioms outVal_eq_block

end Cert.KernelIdeal.A2A

end
-- ==== Proof.RefRun.lean ====
/-
  The reference's run.

  The reference is the identity: its @main returns at once, on one device, and launches no kernel. Read as a
  straight line of host operations it is the empty line, and the contents of every buffer after the empty line
  are its contents at launch. So every weakly fair execution terminates in a state whose argument array is the
  one it started with.
-/
import proofs.«900635_g7700000000000636_dist_a2a_v7x_xyz2x2x4_x_m4096_n1024_f32_1_alg».proof.Proof.Gen.ReferenceIdeal
import Idealize.ShloMosaic.Lib.StableHlo.Run

noncomputable section

namespace Cert.ReferenceIdeal.A2A

open Cert.ReferenceIdeal Cert.ReferenceIdeal.Gen Idealize.ShloMosaic Idealize.ShloMosaic.TcCoe Idealize.SL.Sem Idealize.ShloMosaic.StableHlo

variable {F : FTy → Type} [FloatOps F]

/-- @main is the empty line of host operations. -/
theorem main_eq {F : FTy → Type} [FloatOps F] (c : Dev Cert.ReferenceIdeal.nD) :
    Cert.ReferenceIdeal.main (F := F) c = seq ([] : List (HloOp Cert.ReferenceIdeal.τ Cert.ReferenceIdeal.sig (Elt F))) := rfl

/-- The signature scopes no buffer. -/
theorem scopedRefs_eq :
    (Finset.univ.filter fun b : Ref Cert.ReferenceIdeal.sig .tc => b.isScoped) = ∅ := by decide

/-- The signature scopes no semaphore. -/
theorem scopedSems_eq :
    (Finset.univ.filter fun sm : SemLoc Cert.ReferenceIdeal.sig => sm.isScoped .tc) = ∅ := by decide

/-- From any memory with every counter at zero, every weakly fair execution of the reference terminates, and
    its argument array ends as it began. -/
theorem ref_run (m' : (ℓ : Loc Cert.ReferenceIdeal.nD Cert.ReferenceIdeal.τ Cert.ReferenceIdeal.sig) → Buf (Elt F) ℓ) (g' : Dev Cert.ReferenceIdeal.nD → PrngReg) :
    θ_run (Cert.ReferenceIdeal.defs (F := F)) (onTc (τ := Cert.ReferenceIdeal.τ) (Cert.ReferenceIdeal.main (F := F))) ⟨m', fun _ => 0, g'⟩
      (fun r => ∀ c : Dev Cert.ReferenceIdeal.nD, r.2.mem ((c.tc : Thread Cert.ReferenceIdeal.nD Cert.ReferenceIdeal.τ).loc Cert.ReferenceIdeal.main_arg0)
        = m' ((c.tc : Thread Cert.ReferenceIdeal.nD Cert.ReferenceIdeal.τ).loc Cert.ReferenceIdeal.main_arg0)) :=
  (θ_run (Cert.ReferenceIdeal.defs (F := F)) _ _).mono (fun _ h c => (h c Cert.ReferenceIdeal.main_arg0).trans (after_nil _ ▸ rfl))
    (run_seq scopedRefs_eq scopedSems_eq (Cert.ReferenceIdeal.defs (F := F)) (Cert.ReferenceIdeal.main (F := F))
      (fun _ => []) main_eq (fun _ => trivial) m' g')

/-- info: 'Cert.ReferenceIdeal.A2A.ref_run' depends on axioms: [propext, Classical.choice, Quot.sound] -/
#guard_msgs in #print axioms ref_run

end Cert.ReferenceIdeal.A2A

end
-- ==== Proof.lean ====
/-
  The certificate's claim, assembled.

  The exchange runs on sixteen devices paired across the first mesh axis; each device keeps one half of the columns
  of its 4096 rows and sends the other half to its partner, and ends with 8192 rows of 1024 columns. The reference
  is the identity on the whole array of 8192 rows and 2048 columns. The claim has five conjuncts.

  The two frames of the kernel, at the word-level instance and at the ideal instance, are one theorem read twice:
  from any memory with every counter at zero the launch of the sixteen bodies terminates, faults nowhere and leaves
  every device's argument array as launched (`run_main`, from each device's body obligation `body_obligation`);
  the frame keeps the statement about the argument array and drops the one about the result.
  The reference's frame is its run: a program that returns at once ends in the memory it started from (`ref_run`).
  The ideal pass rewrote no operation, so there is nothing to preserve.
  The algebraic conjunct takes the reference's result to be its argument array. The kernel's run leaves each
  device's result array holding the half it kept beside the half its partner sent, and when every device is
  launched with its row block of the whole array that is the device's column block of the whole array
  (`outVal_eq_block`); the reference's run returns the whole array unchanged.
-/
import proofs.«900635_g7700000000000636_dist_a2a_v7x_xyz2x2x4_x_m4096_n1024_f32_1_alg».proof.Defs
import proofs.«900635_g7700000000000636_dist_a2a_v7x_xyz2x2x4_x_m4096_n1024_f32_1_alg».proof.Proof.Gen.Kernel
import proofs.«900635_g7700000000000636_dist_a2a_v7x_xyz2x2x4_x_m4096_n1024_f32_1_alg».proof.Proof.Gen.KernelIdeal
import proofs.«900635_g7700000000000636_dist_a2a_v7x_xyz2x2x4_x_m4096_n1024_f32_1_alg».proof.Proof.Gen.ReferenceIdeal
import proofs.«900635_g7700000000000636_dist_a2a_v7x_xyz2x2x4_x_m4096_n1024_f32_1_alg».proof.Proof.Gen.Pre_finite_inputs_Kernel
import proofs.«900635_g7700000000000636_dist_a2a_v7x_xyz2x2x4_x_m4096_n1024_f32_1_alg».proof.Proof.Gen.Pre_finite_inputs_ReferenceIdeal
import proofs.«900635_g7700000000000636_dist_a2a_v7x_xyz2x2x4_x_m4096_n1024_f32_1_alg».proof.Proof.KernelIdeal.Launch
import proofs.«900635_g7700000000000636_dist_a2a_v7x_xyz2x2x4_x_m4096_n1024_f32_1_alg».proof.Proof.KernelIdeal.Body
import proofs.«900635_g7700000000000636_dist_a2a_v7x_xyz2x2x4_x_m4096_n1024_f32_1_alg».proof.Proof.Kernel.Launch
import proofs.«900635_g7700000000000636_dist_a2a_v7x_xyz2x2x4_x_m4096_n1024_f32_1_alg».proof.Proof.Kernel.Body
import proofs.«900635_g7700000000000636_dist_a2a_v7x_xyz2x2x4_x_m4096_n1024_f32_1_alg».proof.Proof.Value
import proofs.«900635_g7700000000000636_dist_a2a_v7x_xyz2x2x4_x_m4096_n1024_f32_1_alg».proof.Proof.RefRun

noncomputable section

namespace Cert.Proof

open Idealize.ShloMosaic Idealize.SL.Sem

/-- The kernel at the word-level instance runs and leaves every device's argument array as launched. -/
theorem frame_Kernel : Cert.frame_Kernel :=
  fun m g _ => (θ_run _ _ _).mono (fun _ h c => (h c).2)
    (Cert.Kernel.A2A.run_main (F := Bits) m g (Cert.Kernel.A2A.body_obligation m))

/-- The same at the ideal instance. -/
theorem frame_KernelIdeal : Cert.frame_KernelIdeal :=
  fun m g _ => (θ_run _ _ _).mono (fun _ h c => (h c).2)
    (Cert.KernelIdeal.A2A.run_main (F := Ideal) m g (Cert.KernelIdeal.A2A.body_obligation m))

/-- The reference runs and leaves its argument array as launched. -/
theorem frame_ReferenceIdeal : Cert.frame_ReferenceIdeal :=
  fun m g _ => Cert.ReferenceIdeal.A2A.ref_run (F := Ideal) m g

/-- From memories where every device holds its row block of the reference's argument array: both run, every
    device's result array ends as its column block of the reference's result, which is the argument array, and
    the arguments of both end unchanged. -/
theorem algebraic : Cert.algebraic_KernelIdeal_ReferenceIdeal :=
  fun m g m' g' _ hagree =>
    ⟨m' (((0 : Dev Cert.ReferenceIdeal.nD).tc : Thread Cert.ReferenceIdeal.nD Cert.ReferenceIdeal.τ).loc Cert.ReferenceIdeal.main_arg0),
      (θ_run _ _ _).mono (fun _ h c => ⟨(h c).1.trans (Cert.KernelIdeal.A2A.outVal_eq_block m _ hagree c), (h c).2⟩)
        (Cert.KernelIdeal.A2A.run_main (F := Ideal) m g (Cert.KernelIdeal.A2A.body_obligation m)),
      (θ_run _ _ _).mono (fun _ hr => ⟨hr 0, hr 0⟩) (Cert.ReferenceIdeal.A2A.ref_run (F := Ideal) m' g')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, frame_ReferenceIdeal, trivial, algebraic⟩

end Cert.Proof

end
